-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4x1024 : Shape := ⟨3, ![8192, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8192x4x1024 : S_.BroadcastsInDim S8192x4x1024 (![] : Fin 0 → Fin S8192x4x1024.rank)
  reducesTo_S8192x4x1024_S_d0_1_2 : S8192x4x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S3072 .f32) (main_arg5 : FVec F S1024x1024 .f32) (main_arg6 : FVec F S1024 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x4x1024 .f32) (main_arg1 : FVec F S8192x4x1024 .f32) (main_arg2 : FVec F S8192x4x1024 .f32) (main_arg3 : FVec F S3072x1024 .f32) (main_arg4 : FVec F S3072 .f32) (main_arg5 : FVec F S1024x1024 .f32) (main_arg6 : FVec F S1024 .f32) : IVec S_ 1 :=
  let main_v0 : FVec F S8192x4x1024 .f32 := Host.absf main_arg0
  let main_cst : FVec F S_ .f32 := constant S_ .f32 0x7F800000#32
  let main_v1 : FVec F S8192x4x1024 .f32 := broadcastInDim S8192x4x1024 ![] bcast_S_S8192x4x1024 main_cst
  let main_v2 : IVec S8192x4x1024 1 := cmpf .olt main_v0 main_v1
  let main_c : IVec S_ 1 := constantI S_ 1 1#1
  let main_v3 : IVec S_ 1 := (fun x v => Host.reduce IntOp.andi x v reducesTo_S8192x4x1024_S_d0_1_2 h_S_) main_v2 main_c
  let main_v4 : FVec F S8192x4x1024 .f32 := Host.absf main_arg1
  let main_cst_0 : FVec F S_ .f32 := constant S_ .f32 0x7F800000#32
  let main_v5 : FVec F S8192x4x1024 .f32 := broadcastInDim S8192x4x1024 ![] bcast_S_S8192x4x1024 main_cst_0
  let main_v6 : IVec S8192x4x1024 1 := cmpf .olt main_v4 main_v5
  let main_c_1 : IVec S_ 1 := constantI S_ 1 1#1
  let main_v7 : IVec S_ 1 := (fun x v => Host.reduce IntOp.andi x v reducesTo_S8192x4x1024_S_d0_1_2 h_S_) main_v6 main_c_1
  let main_v8 : IVec S_ 1 := andi main_v3 main_v7
  let main_v9 : FVec F S8192x4x1024 .f32 := Host.absf main_arg2
  let main_cst_2 : FVec F S_ .f32 := constant S_ .f32 0x7F800000#32
  let main_v10 : FVec F S8192x4x1024 .f32 := broadcastInDim S8192x4x1024 ![] bcast_S_S8192x4x1024 main_cst_2
  let main_v11 : IVec S8192x4x1024 1 := cmpf .olt main_v9 main_v10
  let main_c_3 : IVec S_ 1 := constantI S_ 1 1#1
  let main_v12 : IVec S_ 1 := (fun x v => Host.reduce IntOp.andi x v reducesTo_S8192x4x1024_S_d0_1_2 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_arg6 main_v13 main_v16
-- ==== Kernel.lean ====
abbrev S8192x4x1024 : Shape := ⟨3, ![8192, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1x1024 : Shape := ⟨2, ![1, 1024]⟩
abbrev S4x1024 : Shape := ⟨2, ![4, 1024]⟩
abbrev S128x4x1024 : Shape := ⟨3, ![128, 4, 1024]⟩
abbrev S128x1x1024 : Shape := ⟨3, ![128, 1, 1024]⟩
abbrev S128x1024 : Shape := ⟨2, ![128, 1024]⟩
abbrev S128 : Shape := ⟨1, ![128]⟩
abbrev S128x1 : Shape := ⟨2, ![128, 1]⟩

abbrev nBuf : Space → Nat
  | .hbm => 27
  | .vmem => 19
  | .smem => 0
  | _ => 0

abbrev bufTy : (tb : Table) → Fin (tcTables nBuf tb) → BufTy
  | .hbm, ⟨0, _⟩ => ⟨S8192x4x1024, .f32⟩
  | .hbm, ⟨1, _⟩ => ⟨S8192x4x1024, .f32⟩
  | .hbm, ⟨2, _⟩ => ⟨S8192x4x1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S4x1024, .f32⟩
  | .hbm, ⟨26, _⟩ => ⟨S8192x4x1024, .f32⟩
  | .local _ .vmem, ⟨0, _⟩ => ⟨S128x4x1024, .f32⟩
  | .local _ .vmem, ⟨1, _⟩ => ⟨S128x4x1024, .f32⟩
  | .local _ .vmem, ⟨2, _⟩ => ⟨S128x4x1024, .f32⟩
  | .local _ .vmem, ⟨3, _⟩ => ⟨S128x4x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S4x1024, .f32⟩
  | .local _ .vmem, ⟨9, _⟩ => ⟨S4x1024, .f32⟩
  | .local _ .vmem, ⟨10, _⟩ => ⟨S128x4x1024, .f32⟩
  | .local _ .vmem, ⟨11, _⟩ => ⟨S128x4x1024, .f32⟩
  | .local _ .vmem, ⟨12, _⟩ => ⟨S1024x1024, .bf16⟩
  | .local _ .vmem, ⟨13, _⟩ => ⟨S1x1024, .f32⟩
  | .local _ .vmem, ⟨14, _⟩ => ⟨S4x1024, .f32⟩
  | .local _ .vmem, ⟨15, _⟩ => ⟨S1024x1024, .bf16⟩
  | .local _ .vmem, ⟨16, _⟩ => ⟨S1x1024, .f32⟩
  | .local _ .vmem, ⟨17, _⟩ => ⟨S128x4x1024, .f32⟩
  | .local _ .vmem, ⟨18, _⟩ => ⟨S128x4x1024, .f32⟩
  | _, _ => ⟨S8192x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x4x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x4x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S128x4x1024_S128x4x1024_0_0_0 : ∀ a, (![0, 0, 0] : Fin 3 → Nat) a + S128x4x1024.size a ≤ S128x4x1024.size a
  h_S128x4x1024 : 0 < S128x4x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S128x4x1024_o0_0_0_S128x1x1024 : S128x4x1024.Slices ![0, 0, 0] S128x1x1024
  shapeCasts_S128x1x1024_S128x1024 : S128x1x1024.ShapeCasts S128x1024
  broadcasts_S1x1024_S128x1024 : S1x1024.Broadcasts S128x1024
  reduces_S128x1024_S128 : S128x1024.Reduces [1] S128
  shapeCasts_S128_S128x1 : S128.ShapeCasts S128x1
  broadcasts_S128x1_S128x1024 : S128x1.Broadcasts S128x1024
  reduces_S128x1024_S1024 : S128x1024.Reduces [0] S1024
  inb_S4x1024_S1x1024_0_0 : ∀ a, (![0, 0] : Fin 2 → Nat) a + S1x1024.size a ≤ S4x1024.size a
  slices_S128x4x1024_o0_1_0_S128x1x1024 : S128x4x1024.Slices ![0, 1, 0] S128x1x1024
  inb_S4x1024_S1x1024_1_0 : ∀ a, (![1, 0] : Fin 2 → Nat) a + S1x1024.size a ≤ S4x1024.size a
  slices_S128x4x1024_o0_2_0_S128x1x1024 : S128x4x1024.Slices ![0, 2, 0] S128x1x1024
  inb_S4x1024_S1x1024_2_0 : ∀ a, (![2, 0] : Fin 2 → Nat) a + S1x1024.size a ≤ S4x1024.size a
  slices_S128x4x1024_o0_3_0_S128x1x1024 : S128x4x1024.Slices ![0, 3, 0] S128x1x1024
  inb_S4x1024_S1x1024_3_0 : ∀ a, (![3, 0] : Fin 2 → Nat) a + S1x1024.size a ≤ S4x1024.size a
  slices_S4x1024_o0_0_S1x1024 : S4x1024.Slices ![0, 0] S1x1024
  inb_S128x4x1024_S128x1x1024_0_0_0 : ∀ a, (![0, 0, 0] : Fin 3 → Nat) a + S128x1x1024.size a ≤ S128x4x1024.size a
  h_S128x1x1024 : 0 < S128x1x1024.numel
  shapeCasts_S128x1024_S128x1x1024 : S128x1024.ShapeCasts S128x1x1024
  slices_S4x1024_o1_0_S1x1024 : S4x1024.Slices ![1, 0] S1x1024
  inb_S128x4x1024_S128x1x1024_0_1_0 : ∀ a, (![0, 1, 0] : Fin 3 → Nat) a + S128x1x1024.size a ≤ S128x4x1024.size a
  slices_S4x1024_o2_0_S1x1024 : S4x1024.Slices ![2, 0] S1x1024
  inb_S128x4x1024_S128x1x1024_0_2_0 : ∀ a, (![0, 2, 0] : Fin 3 → Nat) a + S128x1x1024.size a ≤ S128x4x1024.size a
  slices_S4x1024_o3_0_S1x1024 : S4x1024.Slices ![3, 0] S1x1024
  inb_S128x4x1024_S128x1x1024_0_3_0 : ∀ a, (![0, 3, 0] : Fin 3 → Nat) a + S128x1x1024.size a ≤ S128x4x1024.size a
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4x1024.size a ≤ S8192x4x1024.size a
  hwx0_0 : ∀ i : grid0.Coords, EltTy.bits .f32 = 32 ∨ (Rect.block (s := S8192x4x1024) S128x4x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4x1024.size a ≤ S8192x4x1024.size a
  hwx0_1 : ∀ i : grid0.Coords, EltTy.bits .f32 = 32 ∨ (Rect.block (s := S8192x4x1024) S128x4x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4x1024.size a ≤ S8192x4x1024.size a
  hwx1_0 : ∀ i : grid1.Coords, EltTy.bits .f32 = 32 ∨ (Rect.block (s := S8192x4x1024) S128x4x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x1024.size a ≤ S4x1024.size a
  hwx1_3 : ∀ i : grid1.Coords, EltTy.bits .f32 = 32 ∨ (Rect.block (s := S4x1024) S4x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x4x1024.size a ≤ S8192x4x1024.size a
  hwx1_6 : ∀ i : grid1.Coords, EltTy.bits .f32 = 32 ∨ (Rect.block (s := S8192x4x1024) S128x4x1024.size (cc1_transform_6 i) (hinb1_6 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg1) S128x4x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S4x1024.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S128x4x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S4x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S128x4x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x4x1024 : Shape := ⟨3, ![8192, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1x1x1024 : Shape := ⟨3, ![1, 1, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S4x1024 : Shape := ⟨2, ![4, 1024]⟩
abbrev S4x1x1024 : Shape := ⟨3, ![4, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x4x1024, .f32⟩
  | .hbm, ⟨1, _⟩ => ⟨S8192x4x1024, .f32⟩
  | .hbm, ⟨2, _⟩ => ⟨S8192x4x1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S8192x4x1024, .f32⟩
  | .hbm, ⟨14, _⟩ => ⟨S1x1x1024, .f32⟩
  | .hbm, ⟨15, _⟩ => ⟨S8192x4x1024, .f32⟩
  | .hbm, ⟨16, _⟩ => ⟨S8192x4x1024, .f32⟩
  | .hbm, ⟨17, _⟩ => ⟨S4x8192x1024, .f32⟩
  | .hbm, ⟨18, _⟩ => ⟨S8192x4x1024, .f32⟩
  | .hbm, ⟨19, _⟩ => ⟨S1x1x1024, .f32⟩
  | .hbm, ⟨20, _⟩ => ⟨S8192x4x1024, .f32⟩
  | .hbm, ⟨21, _⟩ => ⟨S8192x4x1024, .f32⟩
  | .hbm, ⟨22, _⟩ => ⟨S4x8192x1024, .f32⟩
  | .hbm, ⟨23, _⟩ => ⟨S8192x4x1024, .f32⟩
  | .hbm, ⟨24, _⟩ => ⟨S1x1x1024, .f32⟩
  | .hbm, ⟨25, _⟩ => ⟨S8192x4x1024, .f32⟩
  | .hbm, ⟨26, _⟩ => ⟨S8192x4x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S4x8192x1, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x1024, .f32⟩
  | .hbm, ⟨45, _⟩ => ⟨S4x1x1024, .f32⟩
  | .hbm, ⟨46, _⟩ => ⟨S4x8192x1024, .f32⟩
  | .hbm, ⟨47, _⟩ => ⟨S4x8192x1024, .f32⟩
  | .hbm, ⟨48, _⟩ => ⟨S8192x4x1024, .f32⟩
  | .hbm, ⟨49, _⟩ => ⟨S8192x4x1024, .f32⟩
  | .hbm, ⟨50, _⟩ => ⟨S1x1x1024, .f32⟩
  | .hbm, ⟨51, _⟩ => ⟨S8192x4x1024, .f32⟩
  | .hbm, ⟨52, _⟩ => ⟨S8192x4x1024, .f32⟩
  | _, _ => ⟨S8192x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_call1_v2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  bcast_S1024_S1x1x1024_2 : S1024.BroadcastsInDim S1x1x1024 (![2] : Fin 1 → Fin S1x1x1024.rank)
  bcast_S1x1x1024_S8192x4x1024_0_1_2 : S1x1x1024.BroadcastsInDim S8192x4x1024 (![0, 1, 2] : Fin 3 → Fin S8192x4x1024.rank)
  transposes_S8192x4x1024_S4x8192x1024_1_0_2 : S8192x4x1024.Transposes [1, 0, 2] S4x8192x1024
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S4x8192x1_S4x8192x1024_0_1_2 : S4x8192x1.BroadcastsInDim S4x8192x1024 (![0, 1, 2] : Fin 3 → Fin S4x8192x1024.rank)
  reducesTo_S4x8192x1024_S4x1024_d1 : S4x8192x1024.ReducesTo [1] S4x1024
  bcast_S4x1024_S4x1x1024_0_2 : S4x1024.BroadcastsInDim S4x1x1024 (![0, 2] : Fin 2 → Fin S4x1x1024.rank)
  bcast_S4x1x1024_S4x8192x1024_0_1_2 : S4x1x1024.BroadcastsInDim S4x8192x1024 (![0, 1, 2] : Fin 3 → Fin S4x8192x1024.rank)
  transposes_S4x8192x1024_S8192x4x1024_1_0_2 : S4x8192x1024.Transposes [1, 0, 2] S8192x4x1024
  dot_S8192x4x1024_S1024x1024_S8192x4x1024_2_1_01_0_n_n_wf : DotDims.WF S8192x4x1024 S1024x1024 S8192x4x1024 [2] [1] [0, 1] [0] [] []

variable [Facts₀]

def dot_S8192x4x1024_S1024x1024_S8192x4x1024_2_1_01_0_n_n : DotDims S8192x4x1024 S1024x1024 S8192x4x1024 where
  lhsContracting := [2]
  rhsContracting := [1]
  lhsNonContracting := [0, 1]
  rhsNonContracting := [0]
  lhsBatch := []
  rhsBatch := []
  wf := dot_S8192x4x1024_S1024x1024_S8192x4x1024_2_1_01_0_n_n_wf

class Facts : Prop extends Facts₀ where

variable [Facts]
-- ==== Proof.Kernel.Blocks.lean ====
/-
  What the two kernel regions' proofs share.  Each region is entered with the TensorCore's buffers at some
  contents `V`; window `w`'s block at grid point `t` is the part of its array that the window's index map
  selects there, and an input window's staging buffer holds exactly that block whenever the body runs,
  whether the pipeline fetched it at this point or at an earlier one (the index has then not moved).
  Region 0 (the key·value accumulation) resets its scratch accumulator exactly at the first grid point;
  the scratch is one of the core's scoped buffers that no window stages, so the region's invariant holds it
  beside the other unstaged scoped buffers and the generator register.
-/
import proofs.«124462_j10599979287185_1_alg».proof.Proof.Gen.Kernel.Launch
import proofs.«124462_j10599979287185_1_alg».proof.Proof.Gen.Kernel.Skeleton
import proofs.«124462_j10599979287185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-! ## Region 0: the windows' blocks -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: the windows' blocks -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0's branch: the accumulator is reset at the first grid point and nowhere else -/

/-- The body's one conditional, from the grid coordinate: "the point's coordinate is zero". -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-! ## The staging memrefs at a point, and region 0's scratch -/

abbrev ms0_0 (t : Fin cfg0.N) : Memref sig .tc .vmem S128x4x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1024 .f32 := win0_6.stage (cfg0.slots t 6)
abbrev hs0_6 (t : Fin cfg0.N) : (ms0_6 t).IsWhole := hstage0_6 ((cfg0.slots t 6).cast nbuf0_6)
abbrev ms1_0 (t : Fin cfg1.N) : Memref sig .tc .vmem S128x4x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x4x1024 .f32 := win1_6.stage (cfg1.slots t 6)
abbrev hs1_6 (t : Fin cfg1.N) : (ms1_6 t).IsWhole := hstage1_6 ((cfg1.slots t 6).cast nbuf1_6)

/-- Region 0's scratch accumulator: a whole scoped buffer passed beside the windows. -/
abbrev scM0 : Memref sig .tc .vmem S4x1024 .f32 := Memref.whole cc0_scratch0
/-- The views through which the scratch's and region 0's output buffer's contents are stated. -/
abbrev VS0 : View sig .tc .vmem S4x1024 .f32 := scM0.view
abbrev VO0_6 : View sig .tc .vmem S4x1024 .f32 := (Memref.whole cc0_stg6_0 : Memref sig .tc .vmem S4x1024 .f32).view
/-- One staging buffer of region 1's output window, through which its contents are stated. -/
abbrev VO1_6 : View sig .tc .vmem S128x4x1024 .f32 := (Memref.whole cc1_stg6_0 : Memref sig .tc .vmem S128x4x1024 .f32).view

/-- The core's scoped buffers that region 0 neither stages nor uses: each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- Region 0's class invariant with the scratch as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

end Cert.Kernel.Run

end
-- ==== Proof.Kernel.Run0A.lean ====
/-
  Region 0's body at the FIRST grid point: the accumulator is first stored whole with zeros, then each of
  its four rows is read back and stored again with that batch row's contribution added, and at the end the
  whole accumulator is copied into the output block's buffer.  The scratch and the output buffer are taken
  at arbitrary contents: this point overwrites both.
-/
import proofs.«124462_j10599979287185_1_alg».proof.Proof.Kernel.Blocks

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block's buffer (`L6`) and in the scratch (`LS0`), last
    store first, with the proof that from whole staging memrefs holding the six input blocks the body runs
    to a continuation that gets the inputs back unchanged and both buffers with those pieces written. -/
noncomputable def kernelRun0_A (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i)
    (x0 : Vec F S128x4x1024 .f32) (x1 : Vec F S128x4x1024 .f32) (x2 : Vec F S1024x1024 .bf16) (x3 : Vec F S1x1024 .f32) (x4 : Vec F S1024x1024 .bf16) (x5 : Vec F S1x1024 .f32) :
    Σ' (L6 : List (View.Piece (Elt F) S4x1024 .f32)), { LS0 : List (View.Piece (Elt F) S4x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0_kv_kernel i arg1 harg1 arg2 harg2 arg3 harg3 arg4 harg4 arg5 harg5 arg6 harg6 arg7 harg7 arg8 harg8) K } := by
  refine ⟨?_, ?_, fun E K => ?run⟩
  case run =>
    simp only [cc0_kv_kernel_eq_skeleton]; unfold cc0_kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.Kernel.Run

end
-- ==== Proof.Kernel.Run0B.lean ====
/-
  Region 0's body at a LATER grid point: no reset; each of the accumulator's four rows is read as the point
  before left it (`xs0`) and stored again with this tile's contribution of that batch row added, and at the
  end the whole accumulator is copied into the output block's buffer, which is taken at arbitrary contents.
-/
import proofs.«124462_j10599979287185_1_alg».proof.Proof.Kernel.Run0A

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block's buffer (`L6`) and in the scratch (`LS0`), last
    store first, with the proof that from whole staging memrefs holding the six input blocks the body runs
    to a continuation that gets the inputs back unchanged and both buffers with those pieces written. -/
noncomputable def kernelRun0_B (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i)
    (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) :
    Σ' (L6 : List (View.Piece (Elt F) S4x1024 .f32)), { LS0 : List (View.Piece (Elt F) S4x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0_kv_kernel i arg1 harg1 arg2 harg2 arg3 harg3 arg4 harg4 arg5 harg5 arg6 harg6 arg7 harg7 arg8 harg8) K } := by
  refine ⟨?_, ?_, fun E K => ?run⟩
  case run =>
    simp only [cc0_kv_kernel_eq_skeleton]; unfold cc0_kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.Kernel.Run

end
-- ==== Proof.Kernel.Run1.lean ====
/-
  Region 1's body at any grid point: for each of the four batch rows it projects and normalises the query
  tile's row, multiplies by that row of the finished key·value sums, applies the output projection and
  stores the 128×1024 result as plane `b` of the output block.  The four stores tile the block; the output
  buffer is taken at arbitrary contents (each plane is loaded before it is overwritten, and the loaded
  value is not used).
-/
import proofs.«124462_j10599979287185_1_alg».proof.Proof.Kernel.Blocks

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's four stores leave in the output block's buffer, last store first, with the proof
    that from whole staging memrefs holding the six input blocks the body runs to a continuation that gets
    the inputs back unchanged and the output buffer with those pieces written. -/
noncomputable def kernelRun1 (c : Dev nD) (i : grid1.Coords) (arg1 : Memref sig .tc .vmem S128x4x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S4x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S128x4x1024 .f32) (harg7 : arg7.IsWhole)
    (x0 : Vec F S128x4x1024 .f32) (x1 : Vec F S1024x1024 .bf16) (x2 : Vec F S1x1024 .f32) (x3 : Vec F S4x1024 .f32) (x4 : Vec F S1024x1024 .bf16) (x5 : Vec F S1x1024 .f32) :
    { L6 : List (View.Piece (Elt F) S128x4x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc1_out_kernel i arg1 harg1 arg2 harg2 arg3 harg3 arg4 harg4 arg5 harg5 arg6 harg6 arg7 harg7) K } := by
  refine ⟨?_, fun E K => ?run⟩
  case run =>
    simp only [cc1_out_kernel_eq_skeleton]; unfold cc1_out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.Run

end
-- ==== Proof.Kernel.Data.lean ====
/-
  What the two regions leave, point by point, and the body obligations.

  Region 0 carries a 4×1024 accumulator in scratch.  After grid point `n` the scratch holds what the
  point's stores leave: at point 0 the reset-then-accumulate result, a function of that point's input
  blocks alone; at a later point the previous contents with this tile's four row contributions added.
  The output block's buffer holds a copy of the accumulator after every point (it is written back to
  the array only after the last one).  Between points the region's invariant holds the scratch at exactly
  these contents, beside the unstaged scoped buffers and the generator register.

  Region 1 keeps nothing between points: each point's output block is a function of its input blocks.
-/
import proofs.«124462_j10599979287185_1_alg».proof.Proof.Kernel.Run0B
import proofs.«124462_j10599979287185_1_alg».proof.Proof.Kernel.Run1

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 -/

/-- At the first point the one whole store into the output buffer covers it. -/
theorem cover0_A_6 (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (y : S4x1024.Idx) :
    ∃ pc ∈ (kernelRun0_A c i arg1 harg1 arg2 harg2 arg3 harg3 arg4 harg4 arg5 harg5 arg6 harg6 arg7 harg7 arg8 harg8 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 hc0 x0 x1 x2 x3 x4 x5).1 S4x1024.size (by sl_kernel_rfl) y

/-- At the first point the four row stores into the scratch cover it. -/
theorem scover0_A (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (y : S4x1024.Idx) :
    ∃ pc ∈ (kernelRun0_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 hc0 x0 x1 x2 x3 x4 x5).2.1 S1x1024.size (by sl_kernel_rfl) y

/-- What the first point leaves in the output block's buffer. -/
def out0_A_6 (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) : Vec F S4x1024 .f32 :=
  VO0_6.read (Elt F) (VO0_6.writes (Elt F) VO0_6.junk (kernelRun0_A c i arg1 harg1 arg2 harg2 arg3 harg3 arg4 harg4 arg5 harg5 arg6 harg6 arg7 harg7 arg8 harg8 hc0 x0 x1 x2 x3 x4 x5).1)

/-- What the first point leaves in the scratch. -/
def sout0_A (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) : Vec F S4x1024 .f32 :=
  VS0.read (Elt F) (VS0.writes (Elt F) VS0.junk (kernelRun0_A c i arg1 harg1 arg2 harg2 arg3 harg3 arg4 harg4 arg5 harg5 arg6 harg6 arg7 harg7 arg8 harg8 hc0 x0 x1 x2 x3 x4 x5).2.1)

/-- At a later point the one whole store into the output buffer covers it. -/
theorem cover0_B_6 (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) (y : S4x1024.Idx) :
    ∃ pc ∈ (kernelRun0_B c i arg1 harg1 arg2 harg2 arg3 harg3 arg4 harg4 arg5 harg5 arg6 harg6 arg7 harg7 arg8 harg8 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 hc0 x0 x1 x2 x3 x4 x5 xs0).1 S4x1024.size (by sl_kernel_rfl) y

/-- At a later point the four row stores into the scratch cover it. -/
theorem scover0_B (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) (y : S4x1024.Idx) :
    ∃ pc ∈ (kernelRun0_B c i arg1 harg1 arg2 harg2 arg3 harg3 arg4 harg4 arg5 harg5 arg6 harg6 arg7 harg7 arg8 harg8 hc0 x0 x1 x2 x3 x4 x5 xs0).2.1, y ∈ pc.1.set :=
  View.cover_of_tiledL (kernelRun0_B c i arg1 harg1 arg2 harg2 arg3 harg3 arg4 harg4 arg5 harg5 arg6 harg6 arg7 harg7 arg8 harg8 hc0 x0 x1 x2 x3 x4 x5 xs0).2.1 S1x1024.size (by sl_kernel_rfl) y

/-- What a later point leaves in the output block's buffer, from the scratch contents `xs0` it found. -/
def out0_B_6 (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) : Vec F S4x1024 .f32 :=
  VO0_6.read (Elt F) (VO0_6.writes (Elt F) VO0_6.junk (kernelRun0_B c i arg1 harg1 arg2 harg2 arg3 harg3 arg4 harg4 arg5 harg5 arg6 harg6 arg7 harg7 arg8 harg8 hc0 x0 x1 x2 x3 x4 x5 xs0).1)

/-- What a later point leaves in the scratch, from the contents `xs0` it found. -/
def sout0_B (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) : Vec F S4x1024 .f32 :=
  VS0.read (Elt F) (VS0.writes (Elt F) VS0.junk (kernelRun0_B c i arg1 harg1 arg2 harg2 arg3 harg3 arg4 harg4 arg5 harg5 arg6 harg6 arg7 harg7 arg8 harg8 hc0 x0 x1 x2 x3 x4 x5 xs0).2.1)

/-- THE ACCUMULATION: what the output block's buffer and the scratch hold after the body at point `n`
    (a pair: output, scratch), by recursion on the point. -/
def outsAt0 (c : Dev nD) : (n : ℕ) → n < cfg0.N → Vec F S4x1024 .f32 × Vec F S4x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2,
     sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)

/-- `outsAt0` at the first point. -/
theorem outsAt0_A (c : Dev nD) (t : Fin cfg0.N) (h0 : t.val = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (iblk0 V c 0 t) (iblk0 V c 1 t) (iblk0 V c 2 t) (iblk0 V c 3 t) (iblk0 V c 4 t) (iblk0 V c 5 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- `outsAt0` at a later point: over what the point before left in the scratch. -/
theorem outsAt0_B (c : Dev nD) (t : Fin cfg0.N) (h0 : ¬t.val = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact absurd rfl h0
  | succ n => exact rfl

/-- The region invariant before position `n`: before the first point the class's (the scratch at anything);
    afterwards the scratch at what the point before left, the other unstaged scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-- Region 0's proof data on core `c`: the arrays as the region finds them; after the body at point `t` each
    input's buffer at its block and the output's at `outsAt0`'s first component; the invariant `PhiS`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 4000000 in
/-- The body at any point: the inputs' buffers hold their blocks; at point 0 the invariant hands the scratch
    at anything and the reset run applies, later it hands the scratch at what the point before left and the
    accumulating run applies; either way the scratch comes back at this point's contents and the output
    buffer at its copy. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5, after0_6]
  by_cases hz : t.val = 0
  · rw [outsAt0_A V c t hz]
    unfold sout0_A out0_A_6; (try dsimp only)
    rw [PhiS_castSucc V c t, PhiS_zero V c _ _ hz, PhiA0_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ ((hcond0_0 t).mpr hz) (iblk0 V c 0 t) (iblk0 V c 1 t) (iblk0 V c 2 t) (iblk0 V c 3 t) (iblk0 V c 4 t) (iblk0 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_A_6 c _ _ _ _ _ _ _ _ _ _ _ _ _ _ _ _ _ _ _ _ _ _ _ _)
  · rw [outsAt0_B V c t hz]
    unfold sout0_B out0_B_6; (try dsimp only)
    rw [PhiS_castSucc V c t, PhiS_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (fun h => hz ((hcond0_0 t).mp h)) (iblk0 V c 0 t) (iblk0 V c 1 t) (iblk0 V c 2 t) (iblk0 V c 3 t) (iblk0 V c 4 t) (iblk0 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands region 0 is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

/-! # Region 1 -/

/-- The four plane stores tile the output block's buffer. -/
theorem cover1_6 (c : Dev nD) (i : grid1.Coords) (arg1 : Memref sig .tc .vmem S128x4x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S4x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S128x4x1024 .f32) (harg7 : arg7.IsWhole) (x0 : Vec F S128x4x1024 .f32) (x1 : Vec F S1024x1024 .bf16) (x2 : Vec F S1x1024 .f32) (x3 : Vec F S4x1024 .f32) (x4 : Vec F S1024x1024 .bf16) (x5 : Vec F S1x1024 .f32) (y : S128x4x1024.Idx) :
    ∃ pc ∈ (kernelRun1 c i arg1 harg1 arg2 harg2 arg3 harg3 arg4 harg4 arg5 harg5 arg6 harg6 arg7 harg7 x0 x1 x2 x3 x4 x5).1, y ∈ pc.1.set :=
  View.cover_of_tiledL (kernelRun1 c i arg1 harg1 arg2 harg2 arg3 harg3 arg4 harg4 arg5 harg5 arg6 harg6 arg7 harg7 x0 x1 x2 x3 x4 x5).1 S128x1x1024.size (by sl_kernel_rfl) y

/-- What a point leaves in the output block's buffer, from its input blocks. -/
def out1_6 (c : Dev nD) (i : grid1.Coords) (arg1 : Memref sig .tc .vmem S128x4x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S4x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S128x4x1024 .f32) (harg7 : arg7.IsWhole) (x0 : Vec F S128x4x1024 .f32) (x1 : Vec F S1024x1024 .bf16) (x2 : Vec F S1x1024 .f32) (x3 : Vec F S4x1024 .f32) (x4 : Vec F S1024x1024 .bf16) (x5 : Vec F S1x1024 .f32) : Vec F S128x4x1024 .f32 :=
  VO1_6.read (Elt F) (VO1_6.writes (Elt F) VO1_6.junk (kernelRun1 c i arg1 harg1 arg2 harg2 arg3 harg3 arg4 harg4 arg5 harg5 arg6 harg6 arg7 harg7 x0 x1 x2 x3 x4 x5).1)

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 4000000 in
/-- The body at any point of region 1: the inputs' buffers hold their blocks, the run applies, the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold out1_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_6 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Run

end
-- ==== Proof.Kernel.Vals.lean ====
/-
  The TensorCore's unscoped buffers at each boundary of @main, as a fold from the launch memory: after the
  eighteen host operations every buffer they wrote holds that operation's result; after a region its
  arrays hold what its write-backs leave (an input array what it held, the output array the blocks written
  back) and every other buffer what it held.  Read back through the fold, every argument array holds its
  launch contents at the end (no host operation writes an argument, no region has one as an output), and
  the result array holds what region 1's write-backs leave.
-/
import proofs.«124462_j10599979287185_1_alg».proof.Proof.Kernel.Data

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation writes the buffer `b`: the fold over them leaves it as launched. -/
theorem W1_of_unwritten (c : Dev nD) (b : Ref sig .tc)
    (hb : b ∉ ([main_v0, main_v1, main_v2, main_v3, main_v4, main_v5, main_v6, main_v7, main_v8, main_v9, main_v10, main_v11, main_v12, main_v13, main_v14, main_v15, main_v16, main_v17] : List (Ref sig .tc))) :
    W1 m ρ c (Proc.devRef .tc b) = m ((c : Thread nD τ).loc b) := by
  refine (StableHlo.after_of_forall_not_mem (b := Proc.devRef .tc b) _ _ (List.forall_iff_forall_mem.mp ?_)).trans rfl
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  simp only [List.mem_cons, List.mem_nil_iff, or_false, not_or] at hb
  obtain ⟨h0, h1, h2, h3, h4, h5, h6, h7, h8, h9, h10, h11, h12, h13, h14, h15, h16, h17⟩ := hb
  exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5,
    StableHlo.devRef_ne_of_ne h6, StableHlo.devRef_ne_of_ne h7, StableHlo.devRef_ne_of_ne h8, StableHlo.devRef_ne_of_ne h9, StableHlo.devRef_ne_of_ne h10, StableHlo.devRef_ne_of_ne h11,
    StableHlo.devRef_ne_of_ne h12, StableHlo.devRef_ne_of_ne h13, StableHlo.devRef_ne_of_ne h14, StableHlo.devRef_ne_of_ne h15, StableHlo.devRef_ne_of_ne h16, StableHlo.devRef_ne_of_ne h17⟩

/-! ### The arguments end as launched -/

/-- The query array: region 1's input window 0, no array of region 0, written by no host operation. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = m ((c : Thread nD τ).loc main_arg0) := W1_of_unwritten m ρ c main_arg0 (by decide)
/-- The key array: region 0's input window 0. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := W1_of_unwritten m ρ c main_arg1 (by decide)
/-- The value array: region 0's input window 1. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = m ((c : Thread nD τ).loc main_arg2) := W1_of_unwritten m ρ c main_arg2 (by decide)
/-- An argument no window stages. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of_unwritten m ρ c main_arg3 (by decide)
/-- An argument no window stages. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = m ((c : Thread nD τ).loc main_arg4) := W1_of_unwritten m ρ c main_arg4 (by decide)
/-- An argument no window stages. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_of_unwritten m ρ c main_arg5 (by decide)
/-- An argument no window stages. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = m ((c : Thread nD τ).loc main_arg6) := W1_of_unwritten m ρ c main_arg6 (by decide)

/-- The result array ends at what region 1's write-backs leave. -/
theorem W3_main_v19 (c : Dev nD) : W3 m ρ c (Proc.devRef .tc main_v19) = (dat1 (V2 m ρ) c).arrAt 6 cfg1.N := W3_arr m ρ c 6

end Cert.Kernel.Run

end
-- ==== Proof.Kernel.Frame.lean ====
/-
  The whole run of @main: eighteen host operations (the three weight slices transposed and narrowed, the
  output weight transposed and narrowed, the four biases as rows), then the key·value region, then the
  output region.  Each region is entered from exactly the buffer contents the item before it left, so the
  run of the three items ends with every unscoped buffer at the last fold: every argument array as
  launched, the result array at what region 1's write-backs leave.
-/
import proofs.«124462_j10599979287185_1_alg».proof.Proof.Kernel.Vals

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered with every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left at `W3`. Its arrays are
    split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its three items, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every final memory holds every unscoped buffer of every core at the last fold `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.Kernel.Run

end
-- ==== Proof.KernelIdeal.Blocks.lean ====
/-
  What the two kernel regions' proofs share.  Each region is entered with the TensorCore's buffers at some
  contents `V`; window `w`'s block at grid point `t` is the part of its array that the window's index map
  selects there, and an input window's staging buffer holds exactly that block whenever the body runs,
  whether the pipeline fetched it at this point or at an earlier one (the index has then not moved).
  Region 0 (the key·value accumulation) resets its scratch accumulator exactly at the first grid point;
  the scratch is one of the core's scoped buffers that no window stages, so the region's invariant holds it
  beside the other unstaged scoped buffers and the generator register.
-/
import proofs.«124462_j10599979287185_1_alg».proof.Proof.Gen.KernelIdeal.Launch
import proofs.«124462_j10599979287185_1_alg».proof.Proof.Gen.KernelIdeal.Skeleton
import proofs.«124462_j10599979287185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-! ## Region 0: the windows' blocks -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: the windows' blocks -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0's branch: the accumulator is reset at the first grid point and nowhere else -/

/-- The body's one conditional, from the grid coordinate: "the point's coordinate is zero". -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-! ## The staging memrefs at a point, and region 0's scratch -/

abbrev ms0_0 (t : Fin cfg0.N) : Memref sig .tc .vmem S128x4x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1024 .f32 := win0_6.stage (cfg0.slots t 6)
abbrev hs0_6 (t : Fin cfg0.N) : (ms0_6 t).IsWhole := hstage0_6 ((cfg0.slots t 6).cast nbuf0_6)
abbrev ms1_0 (t : Fin cfg1.N) : Memref sig .tc .vmem S128x4x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x4x1024 .f32 := win1_6.stage (cfg1.slots t 6)
abbrev hs1_6 (t : Fin cfg1.N) : (ms1_6 t).IsWhole := hstage1_6 ((cfg1.slots t 6).cast nbuf1_6)

/-- Region 0's scratch accumulator: a whole scoped buffer passed beside the windows. -/
abbrev scM0 : Memref sig .tc .vmem S4x1024 .f32 := Memref.whole cc0_scratch0
/-- The views through which the scratch's and region 0's output buffer's contents are stated. -/
abbrev VS0 : View sig .tc .vmem S4x1024 .f32 := scM0.view
abbrev VO0_6 : View sig .tc .vmem S4x1024 .f32 := (Memref.whole cc0_stg6_0 : Memref sig .tc .vmem S4x1024 .f32).view
/-- One staging buffer of region 1's output window, through which its contents are stated. -/
abbrev VO1_6 : View sig .tc .vmem S128x4x1024 .f32 := (Memref.whole cc1_stg6_0 : Memref sig .tc .vmem S128x4x1024 .f32).view

/-- The core's scoped buffers that region 0 neither stages nor uses: each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- Region 0's class invariant with the scratch as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

end Cert.KernelIdeal.Run

end
-- ==== Proof.KernelIdeal.Run0A.lean ====
/-
  Region 0's body at the FIRST grid point: the accumulator is first stored whole with zeros, then each of
  its four rows is read back and stored again with that batch row's contribution added, and at the end the
  whole accumulator is copied into the output block's buffer.  The scratch and the output buffer are taken
  at arbitrary contents: this point overwrites both.
-/
import proofs.«124462_j10599979287185_1_alg».proof.Proof.KernelIdeal.Blocks

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block's buffer (`L6`) and in the scratch (`LS0`), last
    store first, with the proof that from whole staging memrefs holding the six input blocks the body runs
    to a continuation that gets the inputs back unchanged and both buffers with those pieces written. -/
noncomputable def kernelRun0_A (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i)
    (x0 : Vec F S128x4x1024 .f32) (x1 : Vec F S128x4x1024 .f32) (x2 : Vec F S1024x1024 .bf16) (x3 : Vec F S1x1024 .f32) (x4 : Vec F S1024x1024 .bf16) (x5 : Vec F S1x1024 .f32) :
    Σ' (L6 : List (View.Piece (Elt F) S4x1024 .f32)), { LS0 : List (View.Piece (Elt F) S4x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0_kv_kernel i arg1 harg1 arg2 harg2 arg3 harg3 arg4 harg4 arg5 harg5 arg6 harg6 arg7 harg7 arg8 harg8) K } := by
  refine ⟨?_, ?_, fun E K => ?run⟩
  case run =>
    simp only [cc0_kv_kernel_eq_skeleton]; unfold cc0_kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Run

end
-- ==== Proof.KernelIdeal.Run0B.lean ====
/-
  Region 0's body at a LATER grid point: no reset; each of the accumulator's four rows is read as the point
  before left it (`xs0`) and stored again with this tile's contribution of that batch row added, and at the
  end the whole accumulator is copied into the output block's buffer, which is taken at arbitrary contents.
-/
import proofs.«124462_j10599979287185_1_alg».proof.Proof.KernelIdeal.Run0A

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block's buffer (`L6`) and in the scratch (`LS0`), last
    store first, with the proof that from whole staging memrefs holding the six input blocks the body runs
    to a continuation that gets the inputs back unchanged and both buffers with those pieces written. -/
noncomputable def kernelRun0_B (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i)
    (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) :
    Σ' (L6 : List (View.Piece (Elt F) S4x1024 .f32)), { LS0 : List (View.Piece (Elt F) S4x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0_kv_kernel i arg1 harg1 arg2 harg2 arg3 harg3 arg4 harg4 arg5 harg5 arg6 harg6 arg7 harg7 arg8 harg8) K } := by
  refine ⟨?_, ?_, fun E K => ?run⟩
  case run =>
    simp only [cc0_kv_kernel_eq_skeleton]; unfold cc0_kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Run

end
-- ==== Proof.KernelIdeal.Run1.lean ====
/-
  Region 1's body at any grid point: for each of the four batch rows it projects and normalises the query
  tile's row, multiplies by that row of the finished key·value sums, applies the output projection and
  stores the 128×1024 result as plane `b` of the output block.  The four stores tile the block; the output
  buffer is taken at arbitrary contents (each plane is loaded before it is overwritten, and the loaded
  value is not used).
-/
import proofs.«124462_j10599979287185_1_alg».proof.Proof.KernelIdeal.Blocks

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's four stores leave in the output block's buffer, last store first, with the proof
    that from whole staging memrefs holding the six input blocks the body runs to a continuation that gets
    the inputs back unchanged and the output buffer with those pieces written. -/
noncomputable def kernelRun1 (c : Dev nD) (i : grid1.Coords) (arg1 : Memref sig .tc .vmem S128x4x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S4x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S128x4x1024 .f32) (harg7 : arg7.IsWhole)
    (x0 : Vec F S128x4x1024 .f32) (x1 : Vec F S1024x1024 .bf16) (x2 : Vec F S1x1024 .f32) (x3 : Vec F S4x1024 .f32) (x4 : Vec F S1024x1024 .bf16) (x5 : Vec F S1x1024 .f32) :
    { L6 : List (View.Piece (Elt F) S128x4x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc1_out_kernel i arg1 harg1 arg2 harg2 arg3 harg3 arg4 harg4 arg5 harg5 arg6 harg6 arg7 harg7) K } := by
  refine ⟨?_, fun E K => ?run⟩
  case run =>
    simp only [cc1_out_kernel_eq_skeleton]; unfold cc1_out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Run

end
-- ==== Proof.KernelIdeal.Data.lean ====
/-
  What the two regions leave, point by point, and the body obligations.

  Region 0 carries a 4×1024 accumulator in scratch.  After grid point `n` the scratch holds what the
  point's stores leave: at point 0 the reset-then-accumulate result, a function of that point's input
  blocks alone; at a later point the previous contents with this tile's four row contributions added.
  The output block's buffer holds a copy of the accumulator after every point (it is written back to
  the array only after the last one).  Between points the region's invariant holds the scratch at exactly
  these contents, beside the unstaged scoped buffers and the generator register.

  Region 1 keeps nothing between points: each point's output block is a function of its input blocks.
-/
import proofs.«124462_j10599979287185_1_alg».proof.Proof.KernelIdeal.Run0B
import proofs.«124462_j10599979287185_1_alg».proof.Proof.KernelIdeal.Run1

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 -/

/-- At the first point the one whole store into the output buffer covers it. -/
theorem cover0_A_6 (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (y : S4x1024.Idx) :
    ∃ pc ∈ (kernelRun0_A c i arg1 harg1 arg2 harg2 arg3 harg3 arg4 harg4 arg5 harg5 arg6 harg6 arg7 harg7 arg8 harg8 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 hc0 x0 x1 x2 x3 x4 x5).1 S4x1024.size (by sl_kernel_rfl) y

/-- At the first point the four row stores into the scratch cover it. -/
theorem scover0_A (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (y : S4x1024.Idx) :
    ∃ pc ∈ (kernelRun0_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 hc0 x0 x1 x2 x3 x4 x5).2.1 S1x1024.size (by sl_kernel_rfl) y

/-- What the first point leaves in the output block's buffer. -/
def out0_A_6 (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) : Vec F S4x1024 .f32 :=
  VO0_6.read (Elt F) (VO0_6.writes (Elt F) VO0_6.junk (kernelRun0_A c i arg1 harg1 arg2 harg2 arg3 harg3 arg4 harg4 arg5 harg5 arg6 harg6 arg7 harg7 arg8 harg8 hc0 x0 x1 x2 x3 x4 x5).1)

/-- What the first point leaves in the scratch. -/
def sout0_A (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) : Vec F S4x1024 .f32 :=
  VS0.read (Elt F) (VS0.writes (Elt F) VS0.junk (kernelRun0_A c i arg1 harg1 arg2 harg2 arg3 harg3 arg4 harg4 arg5 harg5 arg6 harg6 arg7 harg7 arg8 harg8 hc0 x0 x1 x2 x3 x4 x5).2.1)

/-- At a later point the one whole store into the output buffer covers it. -/
theorem cover0_B_6 (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) (y : S4x1024.Idx) :
    ∃ pc ∈ (kernelRun0_B c i arg1 harg1 arg2 harg2 arg3 harg3 arg4 harg4 arg5 harg5 arg6 harg6 arg7 harg7 arg8 harg8 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 hc0 x0 x1 x2 x3 x4 x5 xs0).1 S4x1024.size (by sl_kernel_rfl) y

/-- At a later point the four row stores into the scratch cover it. -/
theorem scover0_B (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) (y : S4x1024.Idx) :
    ∃ pc ∈ (kernelRun0_B c i arg1 harg1 arg2 harg2 arg3 harg3 arg4 harg4 arg5 harg5 arg6 harg6 arg7 harg7 arg8 harg8 hc0 x0 x1 x2 x3 x4 x5 xs0).2.1, y ∈ pc.1.set :=
  View.cover_of_tiledL (kernelRun0_B c i arg1 harg1 arg2 harg2 arg3 harg3 arg4 harg4 arg5 harg5 arg6 harg6 arg7 harg7 arg8 harg8 hc0 x0 x1 x2 x3 x4 x5 xs0).2.1 S1x1024.size (by sl_kernel_rfl) y

/-- What a later point leaves in the output block's buffer, from the scratch contents `xs0` it found. -/
def out0_B_6 (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) : Vec F S4x1024 .f32 :=
  VO0_6.read (Elt F) (VO0_6.writes (Elt F) VO0_6.junk (kernelRun0_B c i arg1 harg1 arg2 harg2 arg3 harg3 arg4 harg4 arg5 harg5 arg6 harg6 arg7 harg7 arg8 harg8 hc0 x0 x1 x2 x3 x4 x5 xs0).1)

/-- What a later point leaves in the scratch, from the contents `xs0` it found. -/
def sout0_B (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) : Vec F S4x1024 .f32 :=
  VS0.read (Elt F) (VS0.writes (Elt F) VS0.junk (kernelRun0_B c i arg1 harg1 arg2 harg2 arg3 harg3 arg4 harg4 arg5 harg5 arg6 harg6 arg7 harg7 arg8 harg8 hc0 x0 x1 x2 x3 x4 x5 xs0).2.1)

/-- THE ACCUMULATION: what the output block's buffer and the scratch hold after the body at point `n`
    (a pair: output, scratch), by recursion on the point. -/
def outsAt0 (c : Dev nD) : (n : ℕ) → n < cfg0.N → Vec F S4x1024 .f32 × Vec F S4x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2,
     sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)

/-- `outsAt0` at the first point. -/
theorem outsAt0_A (c : Dev nD) (t : Fin cfg0.N) (h0 : t.val = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (iblk0 V c 0 t) (iblk0 V c 1 t) (iblk0 V c 2 t) (iblk0 V c 3 t) (iblk0 V c 4 t) (iblk0 V c 5 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- `outsAt0` at a later point: over what the point before left in the scratch. -/
theorem outsAt0_B (c : Dev nD) (t : Fin cfg0.N) (h0 : ¬t.val = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact absurd rfl h0
  | succ n => exact rfl

/-- The region invariant before position `n`: before the first point the class's (the scratch at anything);
    afterwards the scratch at what the point before left, the other unstaged scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-- Region 0's proof data on core `c`: the arrays as the region finds them; after the body at point `t` each
    input's buffer at its block and the output's at `outsAt0`'s first component; the invariant `PhiS`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 4000000 in
/-- The body at any point: the inputs' buffers hold their blocks; at point 0 the invariant hands the scratch
    at anything and the reset run applies, later it hands the scratch at what the point before left and the
    accumulating run applies; either way the scratch comes back at this point's contents and the output
    buffer at its copy. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5, after0_6]
  by_cases hz : t.val = 0
  · rw [outsAt0_A V c t hz]
    unfold sout0_A out0_A_6; (try dsimp only)
    rw [PhiS_castSucc V c t, PhiS_zero V c _ _ hz, PhiA0_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ ((hcond0_0 t).mpr hz) (iblk0 V c 0 t) (iblk0 V c 1 t) (iblk0 V c 2 t) (iblk0 V c 3 t) (iblk0 V c 4 t) (iblk0 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_A_6 c _ _ _ _ _ _ _ _ _ _ _ _ _ _ _ _ _ _ _ _ _ _ _ _)
  · rw [outsAt0_B V c t hz]
    unfold sout0_B out0_B_6; (try dsimp only)
    rw [PhiS_castSucc V c t, PhiS_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (fun h => hz ((hcond0_0 t).mp h)) (iblk0 V c 0 t) (iblk0 V c 1 t) (iblk0 V c 2 t) (iblk0 V c 3 t) (iblk0 V c 4 t) (iblk0 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands region 0 is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

/-! # Region 1 -/

/-- The four plane stores tile the output block's buffer. -/
theorem cover1_6 (c : Dev nD) (i : grid1.Coords) (arg1 : Memref sig .tc .vmem S128x4x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S4x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S128x4x1024 .f32) (harg7 : arg7.IsWhole) (x0 : Vec F S128x4x1024 .f32) (x1 : Vec F S1024x1024 .bf16) (x2 : Vec F S1x1024 .f32) (x3 : Vec F S4x1024 .f32) (x4 : Vec F S1024x1024 .bf16) (x5 : Vec F S1x1024 .f32) (y : S128x4x1024.Idx) :
    ∃ pc ∈ (kernelRun1 c i arg1 harg1 arg2 harg2 arg3 harg3 arg4 harg4 arg5 harg5 arg6 harg6 arg7 harg7 x0 x1 x2 x3 x4 x5).1, y ∈ pc.1.set :=
  View.cover_of_tiledL (kernelRun1 c i arg1 harg1 arg2 harg2 arg3 harg3 arg4 harg4 arg5 harg5 arg6 harg6 arg7 harg7 x0 x1 x2 x3 x4 x5).1 S128x1x1024.size (by sl_kernel_rfl) y

/-- What a point leaves in the output block's buffer, from its input blocks. -/
def out1_6 (c : Dev nD) (i : grid1.Coords) (arg1 : Memref sig .tc .vmem S128x4x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S4x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S128x4x1024 .f32) (harg7 : arg7.IsWhole) (x0 : Vec F S128x4x1024 .f32) (x1 : Vec F S1024x1024 .bf16) (x2 : Vec F S1x1024 .f32) (x3 : Vec F S4x1024 .f32) (x4 : Vec F S1024x1024 .bf16) (x5 : Vec F S1x1024 .f32) : Vec F S128x4x1024 .f32 :=
  VO1_6.read (Elt F) (VO1_6.writes (Elt F) VO1_6.junk (kernelRun1 c i arg1 harg1 arg2 harg2 arg3 harg3 arg4 harg4 arg5 harg5 arg6 harg6 arg7 harg7 x0 x1 x2 x3 x4 x5).1)

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 4000000 in
/-- The body at any point of region 1: the inputs' buffers hold their blocks, the run applies, the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold out1_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_6 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Run

end
-- ==== Proof.KernelIdeal.Vals.lean ====
/-
  The TensorCore's unscoped buffers at each boundary of @main, as a fold from the launch memory: after the
  eighteen host operations every buffer they wrote holds that operation's result; after a region its
  arrays hold what its write-backs leave (an input array what it held, the output array the blocks written
  back) and every other buffer what it held.  Read back through the fold, every argument array holds its
  launch contents at the end (no host operation writes an argument, no region has one as an output), and
  the result array holds what region 1's write-backs leave.
-/
import proofs.«124462_j10599979287185_1_alg».proof.Proof.KernelIdeal.Data

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation writes the buffer `b`: the fold over them leaves it as launched. -/
theorem W1_of_unwritten (c : Dev nD) (b : Ref sig .tc)
    (hb : b ∉ ([main_v0, main_v1, main_v2, main_v3, main_v4, main_v5, main_v6, main_v7, main_v8, main_v9, main_v10, main_v11, main_v12, main_v13, main_v14, main_v15, main_v16, main_v17] : List (Ref sig .tc))) :
    W1 m ρ c (Proc.devRef .tc b) = m ((c : Thread nD τ).loc b) := by
  refine (StableHlo.after_of_forall_not_mem (b := Proc.devRef .tc b) _ _ (List.forall_iff_forall_mem.mp ?_)).trans rfl
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  simp only [List.mem_cons, List.mem_nil_iff, or_false, not_or] at hb
  obtain ⟨h0, h1, h2, h3, h4, h5, h6, h7, h8, h9, h10, h11, h12, h13, h14, h15, h16, h17⟩ := hb
  exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5,
    StableHlo.devRef_ne_of_ne h6, StableHlo.devRef_ne_of_ne h7, StableHlo.devRef_ne_of_ne h8, StableHlo.devRef_ne_of_ne h9, StableHlo.devRef_ne_of_ne h10, StableHlo.devRef_ne_of_ne h11,
    StableHlo.devRef_ne_of_ne h12, StableHlo.devRef_ne_of_ne h13, StableHlo.devRef_ne_of_ne h14, StableHlo.devRef_ne_of_ne h15, StableHlo.devRef_ne_of_ne h16, StableHlo.devRef_ne_of_ne h17⟩

/-! ### The arguments end as launched -/

/-- The query array: region 1's input window 0, no array of region 0, written by no host operation. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = m ((c : Thread nD τ).loc main_arg0) := W1_of_unwritten m ρ c main_arg0 (by decide)
/-- The key array: region 0's input window 0. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := W1_of_unwritten m ρ c main_arg1 (by decide)
/-- The value array: region 0's input window 1. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = m ((c : Thread nD τ).loc main_arg2) := W1_of_unwritten m ρ c main_arg2 (by decide)
/-- An argument no window stages. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of_unwritten m ρ c main_arg3 (by decide)
/-- An argument no window stages. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = m ((c : Thread nD τ).loc main_arg4) := W1_of_unwritten m ρ c main_arg4 (by decide)
/-- An argument no window stages. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_of_unwritten m ρ c main_arg5 (by decide)
/-- An argument no window stages. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = m ((c : Thread nD τ).loc main_arg6) := W1_of_unwritten m ρ c main_arg6 (by decide)

/-- The result array ends at what region 1's write-backs leave. -/
theorem W3_main_v19 (c : Dev nD) : W3 m ρ c (Proc.devRef .tc main_v19) = (dat1 (V2 m ρ) c).arrAt 6 cfg1.N := W3_arr m ρ c 6

end Cert.KernelIdeal.Run

end
-- ==== Proof.KernelIdeal.Frame.lean ====
/-
  The whole run of @main: eighteen host operations (the three weight slices transposed and narrowed, the
  output weight transposed and narrowed, the four biases as rows), then the key·value region, then the
  output region.  Each region is entered from exactly the buffer contents the item before it left, so the
  run of the three items ends with every unscoped buffer at the last fold: every argument array as
  launched, the result array at what region 1's write-backs leave.
-/
import proofs.«124462_j10599979287185_1_alg».proof.Proof.KernelIdeal.Vals

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered with every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left at `W3`. Its arrays are
    split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its three items, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every final memory holds every unscoped buffer of every core at the last fold `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.KernelIdeal.Run

end
-- ==== Proof.Spec.lean ====
/-
  What both programs compute, as one function of the seven argument arrays over the extended reals.

  A token `x[s,b,·]` (1024 features) is projected by one third of the packed weight: row `off + f` of the
  `[3072, 1024]` matrix against the token, plus entry `off + f` of the packed bias (`off` = 0 for queries,
  1024 for keys, 2048 for values).  Projected queries and keys are divided by their Euclidean length
  (the square root of the sum of squares over the 1024 features; no epsilon).  For each batch row `b`
  and feature `f`, `kv b f` is the sum over ALL 8192 sequence positions of (normalised key) · (value).
  The attention output at `(s, b, f)` is (normalised query) · `kv b f`, and the result is its output
  projection: row `g` of the `[1024, 1024]` output weight against it, plus the output bias.
-/
import Idealize.ShloMosaic.PureOps.Ideal
import Idealize.ShloMosaic.Lib.ValueIdx

noncomputable section

namespace Cert.HydraSpec

open Idealize.ShloMosaic Idealize.ShloMosaic.ValueIdx

/-- The shapes of the argument arrays. -/
abbrev Tok : Shape := ⟨3, ![8192, 4, 1024]⟩
abbrev WIn : Shape := ⟨2, ![3072, 1024]⟩
abbrev BIn : Shape := ⟨1, ![3072]⟩
abbrev WOut : Shape := ⟨2, ![1024, 1024]⟩
abbrev BOut : Shape := ⟨1, ![1024]⟩

/-- Row `off + f` of the packed projection. -/
abbrev row (off : ℕ) (h : off + 1024 ≤ 3072) (f : Fin 1024) : Fin 3072 := ⟨off + f.val, by have := f.isLt; omega⟩

/-- One third of the packed projection applied to the token at `(s, b)`, at output feature `f`. -/
def proj (off : ℕ) (h : off + 1024 ≤ 3072) (x : Tok.Idx → EReal) (w : WIn.Idx → EReal) (β : BIn.Idx → EReal)
    (s : Fin 8192) (b : Fin 4) (f : Fin 1024) : EReal :=
  (∑ e : Fin 1024, x (ix3 s b e) * w (ix2 (row off h f) e)) + β (ix1 (row off h f))

/-- The Euclidean length of a 1024-vector: the square root of its sum of squares. -/
def len (p : Fin 1024 → EReal) : EReal := Ideal.sqrt (∑ f : Fin 1024, p f * p f)

/-- A 1024-vector divided by its length, entry `f`. -/
def unit (p : Fin 1024 → EReal) (f : Fin 1024) : EReal := Ideal.div (p f) (len p)

/-- Projected queries, keys, values. -/
abbrev projQ (x : Tok.Idx → EReal) (w : WIn.Idx → EReal) (β : BIn.Idx → EReal) := proj 0 (by decide) x w β
abbrev projK (x : Tok.Idx → EReal) (w : WIn.Idx → EReal) (β : BIn.Idx → EReal) := proj 1024 (by decide) x w β
abbrev projV (x : Tok.Idx → EReal) (w : WIn.Idx → EReal) (β : BIn.Idx → EReal) := proj 2048 (by decide) x w β

/-- One sequence position's term of `kv`: (normalised key) · (value) at `(s, b, f)`. -/
def kvTerm (key value : Tok.Idx → EReal) (w : WIn.Idx → EReal) (β : BIn.Idx → EReal) (b : Fin 4) (f : Fin 1024) (s : Fin 8192) : EReal :=
  unit (projK key w β s b) f * projV value w β s b f

/-- The sequence-summed key·value product, per batch row and feature. -/
def kv (key value : Tok.Idx → EReal) (w : WIn.Idx → EReal) (β : BIn.Idx → EReal) (b : Fin 4) (f : Fin 1024) : EReal :=
  ∑ s : Fin 8192, kvTerm key value w β b f s

/-- The attention output before the output projection. -/
def attn (query key value : Tok.Idx → EReal) (w : WIn.Idx → EReal) (β : BIn.Idx → EReal) (s : Fin 8192) (b : Fin 4) (f : Fin 1024) : EReal :=
  unit (projQ query w β s b) f * kv key value w β b f

/-- The result array. -/
def G (query key value : Tok.Idx → EReal) (w : WIn.Idx → EReal) (β : BIn.Idx → EReal) (wo : WOut.Idx → EReal) (bo : BOut.Idx → EReal) :
    Tok.Idx → EReal := fun i =>
  (∑ f : Fin 1024, attn query key value w β (i 0) (i 1) f * wo (ix2 (i 2) f)) + bo (ix1 (i 2))

theorem G_apply (query key value : Tok.Idx → EReal) (w : WIn.Idx → EReal) (β : BIn.Idx → EReal) (wo : WOut.Idx → EReal) (bo : BOut.Idx → EReal)
    (s : Fin 8192) (b : Fin 4) (g : Fin 1024) :
    G query key value w β wo bo (ix3 s b g)
      = (∑ f : Fin 1024, attn query key value w β s b f * wo (ix2 g f)) + bo (ix1 g) := rfl

end Cert.HydraSpec

end
-- ==== Proof.KernelIdeal.RowMath.lean ====
/-
  The row mathematics both kernels' bodies are made of, once as definitions at any float instance and once
  read at an index over the extended reals.

  A tile is 128 sequence positions × 4 batch rows × 1024 features.  One batch row of it is a 128×1024
  matrix (`planeB`).  Its projection is the matrix product with a 1024×1024 weight (stored narrowed; over
  the extended reals narrowing is the identity) started from zero, plus a bias row repeated down the 128
  rows: entry (r, f) is  Σₑ x(r,e)·w(e,f) + bias(f).  A projected matrix divided by its rows' Euclidean
  lengths has entry (r, f) = p(r,f) / √(Σ_f' p(r,f')²).  The column sums of a 128×1024 matrix form one
  row: entry f is Σ_r q(r,f).
-/
import proofs.«124462_j10599979287185_1_alg».proof.Proof.Gen.KernelIdeal.Skeleton
import proofs.«124462_j10599979287185_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Run

open Idealize.ShloMosaic Idealize.ShloMosaic.ValueIdx
open Cert.KernelIdeal Cert.KernelIdeal.Gen

section Defs
variable {F : FTy → Type} [FloatOps F]

/-- Plane `0` (batch row 0) of a 128×4×1024 tile, as a 128×1024 matrix. -/
def plane0 (x : Vec F S128x4x1024 .f32) : FVec F S128x1024 .f32 :=
  shapeCast S128x1024 (extractStridedSlice S128x1x1024 ![0, 0, 0] x slices_S128x4x1024_o0_0_0_S128x1x1024) shapeCasts_S128x1x1024_S128x1024
/-- Plane `1` (batch row 1) of a 128×4×1024 tile, as a 128×1024 matrix. -/
def plane1 (x : Vec F S128x4x1024 .f32) : FVec F S128x1024 .f32 :=
  shapeCast S128x1024 (extractStridedSlice S128x1x1024 ![0, 1, 0] x slices_S128x4x1024_o0_1_0_S128x1x1024) shapeCasts_S128x1x1024_S128x1024
/-- Plane `2` (batch row 2) of a 128×4×1024 tile, as a 128×1024 matrix. -/
def plane2 (x : Vec F S128x4x1024 .f32) : FVec F S128x1024 .f32 :=
  shapeCast S128x1024 (extractStridedSlice S128x1x1024 ![0, 2, 0] x slices_S128x4x1024_o0_2_0_S128x1x1024) shapeCasts_S128x1x1024_S128x1024
/-- Plane `3` (batch row 3) of a 128×4×1024 tile, as a 128×1024 matrix. -/
def plane3 (x : Vec F S128x4x1024 .f32) : FVec F S128x1024 .f32 :=
  shapeCast S128x1024 (extractStridedSlice S128x1x1024 ![0, 3, 0] x slices_S128x4x1024_o0_3_0_S128x1x1024) shapeCasts_S128x1x1024_S128x1024

/-- A 128×1024 matrix times a 1024×1024 weight, started from zero, plus a bias row repeated down the rows. -/
def projF (xr : FVec F S128x1024 .f32) (w : FVec F S1024x1024 .bf16) (bias : FVec F S1x1024 .f32) : FVec F S128x1024 .f32 :=
  addf (matmul dot_S128x1024_S1024x1024_S128x1024_1_0_0_1_n_n none (truncf .bf16 xr bitsLt_bf16_f32) w (constant S128x1024 .f32 0x00000000#32))
    (broadcastTo S128x1024 bias broadcasts_S1x1024_S128x1024)

/-- The rows' Euclidean lengths, as a 128×1 column. -/
def lenF (p : FVec F S128x1024 .f32) : FVec F S128x1 .f32 :=
  sqrt (shapeCast S128x1 (multiReduction .add [1] S128 (mulf p p) 0x00000000#32 reduces_S128x1024_S128 (.inl rfl) rfl) shapeCasts_S128_S128x1)

/-- A matrix with every row divided by its length. -/
def unitF (p : FVec F S128x1024 .f32) : FVec F S128x1024 .f32 :=
  divf p (broadcastTo S128x1024 (lenF p) broadcasts_S128x1_S128x1024)

/-- The column sums of a 128×1024 matrix, as one row. -/
def colSumF (q : FVec F S128x1024 .f32) : FVec F S1x1024 .f32 :=
  shapeCast S1x1024 (multiReduction .add [0] S1024 q 0x00000000#32 reduces_S128x1024_S1024 (.inl rfl) rfl) shapeCasts_S1024_S1x1024

/-- Row `0` of the 4×1024 key·value sums, repeated down 128 rows. -/
def kvRow0 (kv : FVec F S4x1024 .f32) : FVec F S128x1024 .f32 :=
  broadcastTo S128x1024 (extractStridedSlice S1x1024 ![0, 0] kv slices_S4x1024_o0_0_S1x1024) broadcasts_S1x1024_S128x1024
/-- Row `1` of the 4×1024 key·value sums, repeated down 128 rows. -/
def kvRow1 (kv : FVec F S4x1024 .f32) : FVec F S128x1024 .f32 :=
  broadcastTo S128x1024 (extractStridedSlice S1x1024 ![1, 0] kv slices_S4x1024_o1_0_S1x1024) broadcasts_S1x1024_S128x1024
/-- Row `2` of the 4×1024 key·value sums, repeated down 128 rows. -/
def kvRow2 (kv : FVec F S4x1024 .f32) : FVec F S128x1024 .f32 :=
  broadcastTo S128x1024 (extractStridedSlice S1x1024 ![2, 0] kv slices_S4x1024_o2_0_S1x1024) broadcasts_S1x1024_S128x1024
/-- Row `3` of the 4×1024 key·value sums, repeated down 128 rows. -/
def kvRow3 (kv : FVec F S4x1024 .f32) : FVec F S128x1024 .f32 :=
  broadcastTo S128x1024 (extractStridedSlice S1x1024 ![3, 0] kv slices_S4x1024_o3_0_S1x1024) broadcasts_S1x1024_S128x1024

/-- A 128×1024 matrix as a 128×1×1024 plane. -/
def asPlane (y : FVec F S128x1024 .f32) : FVec F S128x1x1024 .f32 :=
  shapeCast S128x1x1024 y shapeCasts_S128x1024_S128x1x1024

end Defs

/-! ## Layout operations on a middle or trailing unit axis, read at coordinates -/

section Layout
variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Read at an index, over the extended reals -/

theorem plane0_apply (x : Vec Ideal S128x4x1024 .f32) (r : Fin 128) (e : Fin 1024) :
    plane0 (F := Ideal) x (ix2 r e) = x (ix3 r 0 e) := by
  unfold plane0
  exact (shapeCast_a1b_ab_apply _ _ r e).trans (slice3_axis1_apply 0 x _ r (0 : Fin 1) e (0 : Fin 4) rfl)
theorem plane1_apply (x : Vec Ideal S128x4x1024 .f32) (r : Fin 128) (e : Fin 1024) :
    plane1 (F := Ideal) x (ix2 r e) = x (ix3 r 1 e) := by
  unfold plane1
  exact (shapeCast_a1b_ab_apply _ _ r e).trans (slice3_axis1_apply 1 x _ r (0 : Fin 1) e (1 : Fin 4) rfl)
theorem plane2_apply (x : Vec Ideal S128x4x1024 .f32) (r : Fin 128) (e : Fin 1024) :
    plane2 (F := Ideal) x (ix2 r e) = x (ix3 r 2 e) := by
  unfold plane2
  exact (shapeCast_a1b_ab_apply _ _ r e).trans (slice3_axis1_apply 2 x _ r (0 : Fin 1) e (2 : Fin 4) rfl)
theorem plane3_apply (x : Vec Ideal S128x4x1024 .f32) (r : Fin 128) (e : Fin 1024) :
    plane3 (F := Ideal) x (ix2 r e) = x (ix3 r 3 e) := by
  unfold plane3
  exact (shapeCast_a1b_ab_apply _ _ r e).trans (slice3_axis1_apply 3 x _ r (0 : Fin 1) e (3 : Fin 4) rfl)

/-! ## The matrix product, the row sums and the column sums at an index -/

theorem lhs_mm_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs_mm_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs_mm_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs_mm_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- A 128×1024 by 1024×1024 product started from zero, at `(r, f)`: the sum over the shared axis. -/
theorem mm_apply (l : FVec Ideal S128x1024 .bf16) (w : FVec Ideal S1024x1024 .bf16) (r : Fin 128) (f : Fin 1024) :
    matmul dot_S128x1024_S1024x1024_S128x1024_1_0_0_1_n_n none l w (constant (F := Ideal) S128x1024 .f32 0x00000000#32) (ix2 r f)
      = ∑ e : Fin 1024, l (ix2 r e) * w (ix2 e f) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 r f) ((contrEquiv1 dot_S128x1024_S1024x1024_S128x1024_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S128x1024_S1024x1024_S128x1024_1_0_0_1_n_n.rhsIdx (ix2 r f) ((contrEquiv1 dot_S128x1024_S1024x1024_S128x1024_1_0_0_1_n_n 1024 rfl rfl).symm k) = ix2 k f := funext fun a => Fin.ext (by
    match a with
    | ⟨0, _⟩ => exact (rhs_mm_0 _ _).trans hk
    | ⟨1, _⟩ => exact rhs_mm_1 _ _)
  rw [el, er]

/-- The sum along the rows of a 128×1024 matrix, at row `r`. -/
theorem rowSum_apply (v : FVec Ideal S128x1024 .f32) (hφ : FKind.Formats .f32)
    (hacc : (0x00000000#32 : BitVec 32) = 0x00000000#32) (r : Fin 128) :
    multiReduction (F := Ideal) .add [1] S128 v 0x00000000#32 reduces_S128x1024_S128 hφ hacc (ix1 r)
      = ∑ f : Fin 1024, v (ix2 r f) := by
  refine (Ideal.multiReduction_add_single v 0x00000000#32 reduces_S128x1024_S128 hφ hacc (ix1 r)).trans ?_
  refine Finset.sum_congr rfl fun k _ => congrArg v (funext fun a => Fin.ext ?_)
  match a with
  | ⟨0, _⟩ => rfl
  | ⟨1, _⟩ => rfl

/-- The sum down the columns of a 128×1024 matrix, at column `f`. -/
theorem colSum_apply (v : FVec Ideal S128x1024 .f32) (hφ : FKind.Formats .f32)
    (hacc : (0x00000000#32 : BitVec 32) = 0x00000000#32) (f : Fin 1024) :
    multiReduction (F := Ideal) .add [0] S1024 v 0x00000000#32 reduces_S128x1024_S1024 hφ hacc (ix1 f)
      = ∑ r : Fin 128, v (ix2 r f) := by
  refine (Ideal.multiReduction_add_single v 0x00000000#32 reduces_S128x1024_S1024 hφ hacc (ix1 f)).trans ?_
  refine Finset.sum_congr rfl fun k _ => congrArg v (funext fun a => Fin.ext ?_)
  match a with
  | ⟨0, _⟩ => rfl
  | ⟨1, _⟩ => rfl

theorem projF_apply (xr : FVec Ideal S128x1024 .f32) (w : FVec Ideal S1024x1024 .bf16) (bias : FVec Ideal S1x1024 .f32) (r : Fin 128) (f : Fin 1024) :
    projF (F := Ideal) xr w bias (ix2 r f) = (∑ e : Fin 1024, xr (ix2 r e) * w (ix2 e f)) + bias (ix2 (0 : Fin 1) f) := by
  unfold projF
  rw [addf_apply, mm_apply, broadcastTo_1b_ab_apply]
  rfl

/-- The length of row `r`, at the column's one entry. -/
theorem lenF_apply (p : FVec Ideal S128x1024 .f32) (r : Fin 128) (u : Fin 1) :
    lenF (F := Ideal) p (ix2 r u) = Cert.HydraSpec.len (fun f' : Fin 1024 => p (ix2 r f')) := by
  unfold lenF
  show FloatOps.sqrt (shapeCast S128x1 _ shapeCasts_S128_S128x1 (ix2 r u)) = _
  rw [shapeCast_a_a1_apply, Ideal.sqrt_def]
  exact congrArg Ideal.sqrt ((rowSum_apply _ _ _ r).trans rfl)

theorem unitF_apply (p : FVec Ideal S128x1024 .f32) (r : Fin 128) (f : Fin 1024) :
    unitF (F := Ideal) p (ix2 r f) = Cert.HydraSpec.unit (fun f' : Fin 1024 => p (ix2 r f')) f := by
  unfold unitF
  rw [divf_apply, broadcastTo_a1_ab_apply, lenF_apply]
  rfl

theorem colSumF_apply (q : FVec Ideal S128x1024 .f32) (f : Fin 1024) :
    colSumF (F := Ideal) q (ix2 (0 : Fin 1) f) = ∑ r : Fin 128, q (ix2 r f) := by
  unfold colSumF
  rw [shapeCast_a_1a_apply]
  exact colSum_apply _ _ _ f

theorem kvRow0_apply (kv : FVec Ideal S4x1024 .f32) (r : Fin 128) (f : Fin 1024) :
    kvRow0 (F := Ideal) kv (ix2 r f) = kv (ix2 0 f) := by
  unfold kvRow0
  exact (broadcastTo_1b_ab_apply _ _ r f).trans (slice2_axis0_apply 0 kv _ (0 : Fin 1) f (0 : Fin 4) rfl)
theorem kvRow1_apply (kv : FVec Ideal S4x1024 .f32) (r : Fin 128) (f : Fin 1024) :
    kvRow1 (F := Ideal) kv (ix2 r f) = kv (ix2 1 f) := by
  unfold kvRow1
  exact (broadcastTo_1b_ab_apply _ _ r f).trans (slice2_axis0_apply 1 kv _ (0 : Fin 1) f (1 : Fin 4) rfl)
theorem kvRow2_apply (kv : FVec Ideal S4x1024 .f32) (r : Fin 128) (f : Fin 1024) :
    kvRow2 (F := Ideal) kv (ix2 r f) = kv (ix2 2 f) := by
  unfold kvRow2
  exact (broadcastTo_1b_ab_apply _ _ r f).trans (slice2_axis0_apply 2 kv _ (0 : Fin 1) f (2 : Fin 4) rfl)
theorem kvRow3_apply (kv : FVec Ideal S4x1024 .f32) (r : Fin 128) (f : Fin 1024) :
    kvRow3 (F := Ideal) kv (ix2 r f) = kv (ix2 3 f) := by
  unfold kvRow3
  exact (broadcastTo_1b_ab_apply _ _ r f).trans (slice2_axis0_apply 3 kv _ (0 : Fin 1) f (3 : Fin 4) rfl)

theorem asPlane_apply (y : FVec Ideal S128x1024 .f32) (r : Fin 128) (g : Fin 1024) :
    asPlane (F := Ideal) y (ix3 r (0 : Fin 1) g) = y (ix2 r g) := by
  unfold asPlane
  exact shapeCast_ab_a1b_apply _ _ r 0 g

end Cert.KernelIdeal.Run

end
-- ==== Proof.KernelIdeal.HostArrays.lean ====
/-
  The arrays the host operations hand the two regions, read at an index over the extended reals.
  The packed weight's three 1024-row slices are transposed (and narrowed, which is the identity here): entry
  (e, f) of the transposed slice at offset `off` is entry (off + f, e) of the packed weight; the output weight
  likewise.  The packed bias's three slices and the output bias become 1×1024 rows.  No host operation writes
  an argument array, and region 0 changes none of the arrays region 1 reads except the key·value sums.
-/
import proofs.«124462_j10599979287185_1_alg».proof.Proof.KernelIdeal.Vals
import proofs.«124462_j10599979287185_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Run

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The layout operations at an index -/

/-- Entry (e, f) of the narrowed transpose of the 1024-row slice at row offset `off` of a packed 3072×1024 array is its
    entry (off + f, e). -/
theorem hostSliceT_apply (off : ℕ) (h : off + 1024 ≤ 3072) (x : FVec Ideal S3072x1024 .f32) (hs : S3072x1024.Slices ![off, 0] S1024x1024)
    (e f : Fin 1024) :
    (truncf .bf16 (transpose S1024x1024 [1, 0] (extractStridedSlice S1024x1024 ![off, 0] x hs) transposes_S1024x1024_S1024x1024_1_0) bitsLt_bf16_f32 : FVec Ideal S1024x1024 .bf16) (ix2 e f)
      = x (ix2 (Cert.HydraSpec.row off h f) e) := by
  refine (truncf_apply (ψ := .bf16) (transpose S1024x1024 [1, 0] (extractStridedSlice S1024x1024 ![off, 0] x hs) transposes_S1024x1024_S1024x1024_1_0) bitsLt_bf16_f32 (ix2 e f)).trans ?_
  refine (transpose_apply _ _ _ _ (ix2 f e) (fun b => match b with | ⟨0, _⟩ => rfl | ⟨1, _⟩ => rfl)).trans ?_
  exact extractStridedSlice_apply _ _ _ _ (ix2 (Cert.HydraSpec.row off h f) e)
    (fun a => match a with
      | ⟨0, _⟩ => by show off + f.val = off + f.val; rfl
      | ⟨1, _⟩ => by show e.val = 0 + e.val; omega)

/-- Entry (f, g) of the narrowed transpose of a square array is its entry (g, f). -/
theorem hostSquareT_apply (x : FVec Ideal S1024x1024 .f32) (f g : Fin 1024) :
    (truncf .bf16 (transpose S1024x1024 [1, 0] x transposes_S1024x1024_S1024x1024_1_0) bitsLt_bf16_f32 : FVec Ideal S1024x1024 .bf16) (ix2 f g)
      = x (ix2 g f) := by
  refine (truncf_apply (ψ := .bf16) (transpose S1024x1024 [1, 0] x transposes_S1024x1024_S1024x1024_1_0) bitsLt_bf16_f32 (ix2 f g)).trans ?_
  exact transpose_apply _ _ _ _ (ix2 g f) (fun b => match b with | ⟨0, _⟩ => rfl | ⟨1, _⟩ => rfl)

/-- Entry (0, f) of the 1×1024 row made of the 1024-slice at offset `off` of a packed 3072-vector is its entry off + f. -/
theorem hostSliceRow_apply (off : ℕ) (h : off + 1024 ≤ 3072) (x : FVec Ideal S3072 .f32) (hs : S3072.Slices ![off] S1024) (f : Fin 1024) :
    (shapeCast S1x1024 (extractStridedSlice S1024 ![off] x hs) shapeCasts_S1024_S1x1024 : FVec Ideal S1x1024 .f32) (ix2 (0 : Fin 1) f)
      = x (ix1 (Cert.HydraSpec.row off h f)) := by
  refine (shapeCast_apply _ _ _ (ix1 f) (by
    rw [Shape.rowMajor_val_one, Shape.rowMajor_val_two]
    show f.val = (0 : ℕ) * 1024 + f.val
    omega)).trans ?_
  exact extractStridedSlice_apply _ _ _ _ (ix1 (Cert.HydraSpec.row off h f))
    (fun a => match a with
      | ⟨0, _⟩ => by show off + f.val = off + f.val; rfl)

/-- Entry (0, g) of a 1024-vector laid out as a 1×1024 row is its entry g. -/
theorem hostRow_apply (x : FVec Ideal S1024 .f32) (g : Fin 1024) :
    (shapeCast S1x1024 x shapeCasts_S1024_S1x1024 : FVec Ideal S1x1024 .f32) (ix2 (0 : Fin 1) g) = x (ix1 g) := by
  exact shapeCast_apply _ _ _ (ix1 g) (by
    rw [Shape.rowMajor_val_one, Shape.rowMajor_val_two]
    show g.val = (0 : ℕ) * 1024 + g.val
    omega)

/-! ## Each host-written array as one term of the launch contents -/

theorem V1_v7_term (c : Dev nD) :
    @Eq (FVec Ideal S1024x1024 .bf16) (V1 m ρ c main_v7)
      (truncf .bf16 (transpose S1024x1024 [1, 0] (extractStridedSlice S1024x1024 ![0, 0] (m ((c : Thread nD τ).loc main_arg3) : FVec Ideal S3072x1024 .f32) slices_S3072x1024_S1024x1024_0_0) transposes_S1024x1024_S1024x1024_1_0) bitsLt_bf16_f32) := by
  dsimp only [V1, W1, W0, hostOps0]; after_results
theorem V1_v9_term (c : Dev nD) :
    @Eq (FVec Ideal S1024x1024 .bf16) (V1 m ρ c main_v9)
      (truncf .bf16 (transpose S1024x1024 [1, 0] (extractStridedSlice S1024x1024 ![1024, 0] (m ((c : Thread nD τ).loc main_arg3) : FVec Ideal S3072x1024 .f32) slices_S3072x1024_S1024x1024_1024_0) transposes_S1024x1024_S1024x1024_1_0) bitsLt_bf16_f32) := by
  dsimp only [V1, W1, W0, hostOps0]; after_results
theorem V1_v11_term (c : Dev nD) :
    @Eq (FVec Ideal S1024x1024 .bf16) (V1 m ρ c main_v11)
      (truncf .bf16 (transpose S1024x1024 [1, 0] (extractStridedSlice S1024x1024 ![2048, 0] (m ((c : Thread nD τ).loc main_arg3) : FVec Ideal S3072x1024 .f32) slices_S3072x1024_S1024x1024_2048_0) transposes_S1024x1024_S1024x1024_1_0) bitsLt_bf16_f32) := by
  dsimp only [V1, W1, W0, hostOps0]; after_results
theorem V1_v13_term (c : Dev nD) :
    @Eq (FVec Ideal S1024x1024 .bf16) (V1 m ρ c main_v13)
      (truncf .bf16 (transpose S1024x1024 [1, 0] (m ((c : Thread nD τ).loc main_arg5) : FVec Ideal S1024x1024 .f32) transposes_S1024x1024_S1024x1024_1_0) bitsLt_bf16_f32) := by
  dsimp only [V1, W1, W0, hostOps0]; after_results
theorem V1_v14_term (c : Dev nD) :
    @Eq (FVec Ideal S1x1024 .f32) (V1 m ρ c main_v14)
      (shapeCast S1x1024 (extractStridedSlice S1024 ![0] (m ((c : Thread nD τ).loc main_arg4) : FVec Ideal S3072 .f32) slices_S3072_S1024_0) shapeCasts_S1024_S1x1024) := by
  dsimp only [V1, W1, W0, hostOps0]; after_results
  rfl
theorem V1_v15_term (c : Dev nD) :
    @Eq (FVec Ideal S1x1024 .f32) (V1 m ρ c main_v15)
      (shapeCast S1x1024 (extractStridedSlice S1024 ![1024] (m ((c : Thread nD τ).loc main_arg4) : FVec Ideal S3072 .f32) slices_S3072_S1024_1024) shapeCasts_S1024_S1x1024) := by
  dsimp only [V1, W1, W0, hostOps0]; after_results
  rfl
theorem V1_v16_term (c : Dev nD) :
    @Eq (FVec Ideal S1x1024 .f32) (V1 m ρ c main_v16)
      (shapeCast S1x1024 (extractStridedSlice S1024 ![2048] (m ((c : Thread nD τ).loc main_arg4) : FVec Ideal S3072 .f32) slices_S3072_S1024_2048) shapeCasts_S1024_S1x1024) := by
  dsimp only [V1, W1, W0, hostOps0]; after_results
  rfl
theorem V1_v17_term (c : Dev nD) :
    @Eq (FVec Ideal S1x1024 .f32) (V1 m ρ c main_v17)
      (shapeCast S1x1024 (m ((c : Thread nD τ).loc main_arg6) : FVec Ideal S1024 .f32) shapeCasts_S1024_S1x1024) := by
  dsimp only [V1, W1, W0, hostOps0]; after_results
  rfl

/-! ## The arrays at an index -/

theorem V1_v7 (c : Dev nD) (e f : Fin 1024) :
    V1 m ρ c main_v7 (ix2 e f) = (m ((c : Thread nD τ).loc main_arg3)) (ix2 (Cert.HydraSpec.row 0 (by decide) f) e) :=
  (congrFun (V1_v7_term m ρ c) (ix2 e f)).trans (hostSliceT_apply 0 (by decide) _ slices_S3072x1024_S1024x1024_0_0 e f)
theorem V1_v9 (c : Dev nD) (e f : Fin 1024) :
    V1 m ρ c main_v9 (ix2 e f) = (m ((c : Thread nD τ).loc main_arg3)) (ix2 (Cert.HydraSpec.row 1024 (by decide) f) e) :=
  (congrFun (V1_v9_term m ρ c) (ix2 e f)).trans (hostSliceT_apply 1024 (by decide) _ slices_S3072x1024_S1024x1024_1024_0 e f)
theorem V1_v11 (c : Dev nD) (e f : Fin 1024) :
    V1 m ρ c main_v11 (ix2 e f) = (m ((c : Thread nD τ).loc main_arg3)) (ix2 (Cert.HydraSpec.row 2048 (by decide) f) e) :=
  (congrFun (V1_v11_term m ρ c) (ix2 e f)).trans (hostSliceT_apply 2048 (by decide) _ slices_S3072x1024_S1024x1024_2048_0 e f)
theorem V1_v13 (c : Dev nD) (f g : Fin 1024) :
    V1 m ρ c main_v13 (ix2 f g) = (m ((c : Thread nD τ).loc main_arg5)) (ix2 g f) :=
  (congrFun (V1_v13_term m ρ c) (ix2 f g)).trans (hostSquareT_apply _ f g)
theorem V1_v14 (c : Dev nD) (f : Fin 1024) :
    V1 m ρ c main_v14 (ix2 (0 : Fin 1) f) = (m ((c : Thread nD τ).loc main_arg4)) (ix1 (Cert.HydraSpec.row 0 (by decide) f)) :=
  (congrFun (V1_v14_term m ρ c) (ix2 (0 : Fin 1) f)).trans (hostSliceRow_apply 0 (by decide) _ slices_S3072_S1024_0 f)
theorem V1_v15 (c : Dev nD) (f : Fin 1024) :
    V1 m ρ c main_v15 (ix2 (0 : Fin 1) f) = (m ((c : Thread nD τ).loc main_arg4)) (ix1 (Cert.HydraSpec.row 1024 (by decide) f)) :=
  (congrFun (V1_v15_term m ρ c) (ix2 (0 : Fin 1) f)).trans (hostSliceRow_apply 1024 (by decide) _ slices_S3072_S1024_1024 f)
theorem V1_v16 (c : Dev nD) (f : Fin 1024) :
    V1 m ρ c main_v16 (ix2 (0 : Fin 1) f) = (m ((c : Thread nD τ).loc main_arg4)) (ix1 (Cert.HydraSpec.row 2048 (by decide) f)) :=
  (congrFun (V1_v16_term m ρ c) (ix2 (0 : Fin 1) f)).trans (hostSliceRow_apply 2048 (by decide) _ slices_S3072_S1024_2048 f)
theorem V1_v17 (c : Dev nD) (g : Fin 1024) :
    V1 m ρ c main_v17 (ix2 (0 : Fin 1) g) = (m ((c : Thread nD τ).loc main_arg6)) (ix1 g) :=
  (congrFun (V1_v17_term m ρ c) (ix2 (0 : Fin 1) g)).trans (hostRow_apply _ g)

theorem V1_arg0 (c : Dev nD) : V1 m ρ c main_arg0 = (m ((c : Thread nD τ).loc main_arg0)) := W1_of_unwritten m ρ c main_arg0 (by decide)
theorem V1_arg1 (c : Dev nD) : V1 m ρ c main_arg1 = (m ((c : Thread nD τ).loc main_arg1)) := W1_of_unwritten m ρ c main_arg1 (by decide)
theorem V1_arg2 (c : Dev nD) : V1 m ρ c main_arg2 = (m ((c : Thread nD τ).loc main_arg2)) := W1_of_unwritten m ρ c main_arg2 (by decide)
theorem V2_arg0 (c : Dev nD) : V2 m ρ c main_arg0 = V1 m ρ c main_arg0 := W2_of_ne m ρ c main_arg0 (by decide)
theorem V2_v7 (c : Dev nD) : V2 m ρ c main_v7 = V1 m ρ c main_v7 := W2_of_ne m ρ c main_v7 (by decide)
theorem V2_v14 (c : Dev nD) : V2 m ρ c main_v14 = V1 m ρ c main_v14 := W2_of_ne m ρ c main_v14 (by decide)
theorem V2_v13 (c : Dev nD) : V2 m ρ c main_v13 = V1 m ρ c main_v13 := W2_of_ne m ρ c main_v13 (by decide)
theorem V2_v17 (c : Dev nD) : V2 m ρ c main_v17 = V1 m ρ c main_v17 := W2_of_ne m ρ c main_v17 (by decide)
theorem V2_v18 (c : Dev nD) : V2 m ρ c main_v18 = (dat0 (V1 m ρ) c).arrAt 6 cfg0.N := W2_arr m ρ c 6

end Cert.KernelIdeal.Run

end
-- ==== Proof.KernelIdeal.BlockReads.lean ====
/-
  A window's block at a grid point, read off its array at an index.  The three token windows (keys and
  values in region 0, queries in region 1) and region 1's output window have block 128×4×1024 with index
  map (t, 0, 0): entry (r, b, e) of the block at point t is entry (128·t + r, b, e) of the array.  Every
  other window has ONE block, the whole array, at every point.
-/
import proofs.«124462_j10599979287185_1_alg».proof.Proof.KernelIdeal.Blocks
import Idealize.ShloMosaic.Lib.ValueIdx
import Idealize.ShloMosaic.Lib.Pipeline.Value

set_option maxRecDepth 16384

noncomputable section

namespace Cert.KernelIdeal.Run

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-! ## Region 0 -/

/-- The token windows' block index at point `t` is `(t, 0, 0)`; every other window's is zero on both axes. -/
theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)

theorem iblk0_0_apply (c : Dev nD) (t : Fin cfg0.N) (r : Fin 128) (b : Fin 4) (e : Fin 1024) :
    iblk0 V c 0 t (ix3 r b e) = V c main_arg1 (ix3 (⟨128 * t.val + r.val, by have h1 := t.isLt; have h2 : cfg0.N = 64 := N_0; have h3 := r.isLt; omega⟩ : Fin 8192) b e) := by
  unfold iblk0
  show V c main_arg1 (((cfg0.win 0).blk t).view.emb (ix3 r b e)) = V c main_arg1 _
  refine congrArg (V c main_arg1) (funext fun a => Fin.ext ?_)
  obtain ⟨e0, e1, e2⟩ := idx0_0 t
  match a with
  | ⟨0, _⟩ => show win0_0.index t (0 : Fin 3) * 128 + 1 * r.val = 128 * t.val + r.val; omega
  | ⟨1, _⟩ => show win0_0.index t (1 : Fin 3) * 4 + 1 * b.val = b.val; omega
  | ⟨2, _⟩ => show win0_0.index t (2 : Fin 3) * 1024 + 1 * e.val = e.val; omega
theorem iblk0_1_apply (c : Dev nD) (t : Fin cfg0.N) (r : Fin 128) (b : Fin 4) (e : Fin 1024) :
    iblk0 V c 1 t (ix3 r b e) = V c main_arg2 (ix3 (⟨128 * t.val + r.val, by have h1 := t.isLt; have h2 : cfg0.N = 64 := N_0; have h3 := r.isLt; omega⟩ : Fin 8192) b e) := by
  unfold iblk0
  show V c main_arg2 (((cfg0.win 1).blk t).view.emb (ix3 r b e)) = V c main_arg2 _
  refine congrArg (V c main_arg2) (funext fun a => Fin.ext ?_)
  obtain ⟨e0, e1, e2⟩ := idx0_1 t
  match a with
  | ⟨0, _⟩ => show win0_1.index t (0 : Fin 3) * 128 + 1 * r.val = 128 * t.val + r.val; omega
  | ⟨1, _⟩ => show win0_1.index t (1 : Fin 3) * 4 + 1 * b.val = b.val; omega
  | ⟨2, _⟩ => show win0_1.index t (2 : Fin 3) * 1024 + 1 * e.val = e.val; omega
theorem iblk0_2_apply (c : Dev nD) (t : Fin cfg0.N) (e f : Fin 1024) : iblk0 V c 2 t (ix2 e f) = V c main_v9 (ix2 e f) := by
  unfold iblk0
  show V c main_v9 (((cfg0.win 2).blk t).view.emb (ix2 e f)) = V c main_v9 _
  refine congrArg (V c main_v9) (funext fun a => Fin.ext ?_)
  obtain ⟨e0, e1⟩ := idx0_2 t
  match a with
  | ⟨0, _⟩ => show win0_2.index t (0 : Fin 2) * 1024 + 1 * e.val = e.val; omega
  | ⟨1, _⟩ => show win0_2.index t (1 : Fin 2) * 1024 + 1 * f.val = f.val; omega
theorem iblk0_3_apply (c : Dev nD) (t : Fin cfg0.N) (f : Fin 1024) : iblk0 V c 3 t (ix2 (0 : Fin 1) f) = V c main_v15 (ix2 (0 : Fin 1) f) := by
  unfold iblk0
  show V c main_v15 (((cfg0.win 3).blk t).view.emb (ix2 (0 : Fin 1) f)) = V c main_v15 _
  refine congrArg (V c main_v15) (funext fun a => Fin.ext ?_)
  obtain ⟨e0, e1⟩ := idx0_3 t
  match a with
  | ⟨0, _⟩ => show win0_3.index t (0 : Fin 2) * 1 + 1 * (0 : Fin 1).val = (0 : Fin 1).val; omega
  | ⟨1, _⟩ => show win0_3.index t (1 : Fin 2) * 1024 + 1 * f.val = f.val; omega
theorem iblk0_4_apply (c : Dev nD) (t : Fin cfg0.N) (e f : Fin 1024) : iblk0 V c 4 t (ix2 e f) = V c main_v11 (ix2 e f) := by
  unfold iblk0
  show V c main_v11 (((cfg0.win 4).blk t).view.emb (ix2 e f)) = V c main_v11 _
  refine congrArg (V c main_v11) (funext fun a => Fin.ext ?_)
  obtain ⟨e0, e1⟩ := idx0_4 t
  match a with
  | ⟨0, _⟩ => show win0_4.index t (0 : Fin 2) * 1024 + 1 * e.val = e.val; omega
  | ⟨1, _⟩ => show win0_4.index t (1 : Fin 2) * 1024 + 1 * f.val = f.val; omega
theorem iblk0_5_apply (c : Dev nD) (t : Fin cfg0.N) (f : Fin 1024) : iblk0 V c 5 t (ix2 (0 : Fin 1) f) = V c main_v16 (ix2 (0 : Fin 1) f) := by
  unfold iblk0
  show V c main_v16 (((cfg0.win 5).blk t).view.emb (ix2 (0 : Fin 1) f)) = V c main_v16 _
  refine congrArg (V c main_v16) (funext fun a => Fin.ext ?_)
  obtain ⟨e0, e1⟩ := idx0_5 t
  match a with
  | ⟨0, _⟩ => show win0_5.index t (0 : Fin 2) * 1 + 1 * (0 : Fin 1).val = (0 : Fin 1).val; omega
  | ⟨1, _⟩ => show win0_5.index t (1 : Fin 2) * 1024 + 1 * f.val = f.val; omega

/-! ## Region 1 -/

/-- The query window's block index at point `t` is `(t, 0, 0)`; every other input window's is zero on both axes. -/
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)

theorem iblk1_0_apply (c : Dev nD) (t : Fin cfg1.N) (r : Fin 128) (b : Fin 4) (e : Fin 1024) :
    iblk1 V c 0 t (ix3 r b e) = V c main_arg0 (ix3 (⟨128 * t.val + r.val, by have h1 := t.isLt; have h2 : cfg1.N = 64 := N_1; have h3 := r.isLt; omega⟩ : Fin 8192) b e) := by
  unfold iblk1
  show V c main_arg0 (((cfg1.win 0).blk t).view.emb (ix3 r b e)) = V c main_arg0 _
  refine congrArg (V c main_arg0) (funext fun a => Fin.ext ?_)
  obtain ⟨e0, e1, e2⟩ := idx1_0 t
  match a with
  | ⟨0, _⟩ => show win1_0.index t (0 : Fin 3) * 128 + 1 * r.val = 128 * t.val + r.val; omega
  | ⟨1, _⟩ => show win1_0.index t (1 : Fin 3) * 4 + 1 * b.val = b.val; omega
  | ⟨2, _⟩ => show win1_0.index t (2 : Fin 3) * 1024 + 1 * e.val = e.val; omega
theorem iblk1_1_apply (c : Dev nD) (t : Fin cfg1.N) (e f : Fin 1024) : iblk1 V c 1 t (ix2 e f) = V c main_v7 (ix2 e f) := by
  unfold iblk1
  show V c main_v7 (((cfg1.win 1).blk t).view.emb (ix2 e f)) = V c main_v7 _
  refine congrArg (V c main_v7) (funext fun a => Fin.ext ?_)
  obtain ⟨e0, e1⟩ := idx1_1 t
  match a with
  | ⟨0, _⟩ => show win1_1.index t (0 : Fin 2) * 1024 + 1 * e.val = e.val; omega
  | ⟨1, _⟩ => show win1_1.index t (1 : Fin 2) * 1024 + 1 * f.val = f.val; omega
theorem iblk1_2_apply (c : Dev nD) (t : Fin cfg1.N) (f : Fin 1024) : iblk1 V c 2 t (ix2 (0 : Fin 1) f) = V c main_v14 (ix2 (0 : Fin 1) f) := by
  unfold iblk1
  show V c main_v14 (((cfg1.win 2).blk t).view.emb (ix2 (0 : Fin 1) f)) = V c main_v14 _
  refine congrArg (V c main_v14) (funext fun a => Fin.ext ?_)
  obtain ⟨e0, e1⟩ := idx1_2 t
  match a with
  | ⟨0, _⟩ => show win1_2.index t (0 : Fin 2) * 1 + 1 * (0 : Fin 1).val = (0 : Fin 1).val; omega
  | ⟨1, _⟩ => show win1_2.index t (1 : Fin 2) * 1024 + 1 * f.val = f.val; omega
theorem iblk1_3_apply (c : Dev nD) (t : Fin cfg1.N) (b : Fin 4) (f : Fin 1024) : iblk1 V c 3 t (ix2 b f) = V c main_v18 (ix2 b f) := by
  unfold iblk1
  show V c main_v18 (((cfg1.win 3).blk t).view.emb (ix2 b f)) = V c main_v18 _
  refine congrArg (V c main_v18) (funext fun a => Fin.ext ?_)
  obtain ⟨e0, e1⟩ := idx1_3 t
  match a with
  | ⟨0, _⟩ => show win1_3.index t (0 : Fin 2) * 4 + 1 * b.val = b.val; omega
  | ⟨1, _⟩ => show win1_3.index t (1 : Fin 2) * 1024 + 1 * f.val = f.val; omega
theorem iblk1_4_apply (c : Dev nD) (t : Fin cfg1.N) (f g : Fin 1024) : iblk1 V c 4 t (ix2 f g) = V c main_v13 (ix2 f g) := by
  unfold iblk1
  show V c main_v13 (((cfg1.win 4).blk t).view.emb (ix2 f g)) = V c main_v13 _
  refine congrArg (V c main_v13) (funext fun a => Fin.ext ?_)
  obtain ⟨e0, e1⟩ := idx1_4 t
  match a with
  | ⟨0, _⟩ => show win1_4.index t (0 : Fin 2) * 1024 + 1 * f.val = f.val; omega
  | ⟨1, _⟩ => show win1_4.index t (1 : Fin 2) * 1024 + 1 * g.val = g.val; omega
theorem iblk1_5_apply (c : Dev nD) (t : Fin cfg1.N) (g : Fin 1024) : iblk1 V c 5 t (ix2 (0 : Fin 1) g) = V c main_v17 (ix2 (0 : Fin 1) g) := by
  unfold iblk1
  show V c main_v17 (((cfg1.win 5).blk t).view.emb (ix2 (0 : Fin 1) g)) = V c main_v17 _
  refine congrArg (V c main_v17) (funext fun a => Fin.ext ?_)
  obtain ⟨e0, e1⟩ := idx1_5 t
  match a with
  | ⟨0, _⟩ => show win1_5.index t (0 : Fin 2) * 1 + 1 * (0 : Fin 1).val = (0 : Fin 1).val; omega
  | ⟨1, _⟩ => show win1_5.index t (1 : Fin 2) * 1024 + 1 * g.val = g.val; omega

end Cert.KernelIdeal.Run

end
-- ==== Proof.KernelIdeal.KvPieces.lean ====
/-
  What region 0's body leaves in its scratch accumulator and in the output block's buffer, read at an
  index over the extended reals.  A grid point's tile is 128 sequence positions; for batch row b and
  feature f its contribution is the sum over the tile's 128 positions r of (the projected key of
  position r, batch row b, divided by its Euclidean length, at feature f) times (the projected value
  at the same position, batch row and feature).  The first point stores zero and then, row by row, zero
  plus that contribution; a later point stores, row by row, what the row held plus that contribution.
  The output block's buffer is a whole copy of the accumulator, made after the four row stores.
-/
import proofs.«124462_j10599979287185_1_alg».proof.Proof.KernelIdeal.Data
import proofs.«124462_j10599979287185_1_alg».proof.Proof.KernelIdeal.RowMath
import proofs.«124462_j10599979287185_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Run

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One batch row's contribution of a tile: the column sums, over the tile's 128 positions, of the
    normalised projected key plane times the projected value plane. -/
def tileRow (pk pv : FVec F S128x1024 .f32) (wk : FVec F S1024x1024 .bf16) (bk : FVec F S1x1024 .f32)
    (wv : FVec F S1024x1024 .bf16) (bv : FVec F S1x1024 .f32) : FVec F S1x1024 .f32 :=
  colSumF (mulf (unitF (projF pk wk bk)) (projF pv wv bv))

theorem pay_row0 (x0 x1 : Vec F S128x4x1024 .f32) (x2 : Vec F S1024x1024 .bf16) (x3 : Vec F S1x1024 .f32) (x4 : Vec F S1024x1024 .bf16) (x5 : Vec F S1x1024 .f32) (a : Vec F S1x1024 .f32) :
    k0_pay7 (k0_pay6 x0 x1 x2 x3 x4 x5 a) = addf a (tileRow (plane0 x0) (plane0 x1) x2 x3 x4 x5) := by
  simp only [k0_pay7, k0_pay6, k0_pay2, k0_pay3, k0_pay4, k0_pay5, shapeCast_self]
  rfl

theorem pay_row1 (x0 x1 : Vec F S128x4x1024 .f32) (x2 : Vec F S1024x1024 .bf16) (x3 : Vec F S1x1024 .f32) (x4 : Vec F S1024x1024 .bf16) (x5 : Vec F S1x1024 .f32) (a : Vec F S1x1024 .f32) :
    k0_pay8 x0 x1 (k0_pay2 x2) (k0_pay3 x3) (k0_pay4 x4) (k0_pay5 x5) a = addf a (tileRow (plane1 x0) (plane1 x1) x2 x3 x4 x5) := by
  simp only [k0_pay8, k0_pay2, k0_pay3, k0_pay4, k0_pay5, shapeCast_self]
  rfl

theorem pay_row2 (x0 x1 : Vec F S128x4x1024 .f32) (x2 : Vec F S1024x1024 .bf16) (x3 : Vec F S1x1024 .f32) (x4 : Vec F S1024x1024 .bf16) (x5 : Vec F S1x1024 .f32) (a : Vec F S1x1024 .f32) :
    k0_pay12 (k0_pay9 x0 (k0_pay2 x2) (k0_pay3 x3)) (k0_pay10 x1 (k0_pay4 x4) (k0_pay5 x5)) (k0_pay11 x0 (k0_pay2 x2) (k0_pay3 x3)) a
      = addf a (tileRow (plane2 x0) (plane2 x1) x2 x3 x4 x5) := by
  simp only [k0_pay12, k0_pay11, k0_pay10, k0_pay9, k0_pay2, k0_pay3, k0_pay4, k0_pay5, shapeCast_self]
  rfl

theorem pay_row3 (x0 x1 : Vec F S128x4x1024 .f32) (x2 : Vec F S1024x1024 .bf16) (x3 : Vec F S1x1024 .f32) (x4 : Vec F S1024x1024 .bf16) (x5 : Vec F S1x1024 .f32) (a : Vec F S1x1024 .f32) :
    k0_pay13 x0 x1 (k0_pay2 x2) (k0_pay3 x3) (k0_pay4 x4) (k0_pay5 x5) a = addf a (tileRow (plane3 x0) (plane3 x1) x2 x3 x4 x5) := by
  simp only [k0_pay13, k0_pay2, k0_pay3, k0_pay4, k0_pay5, shapeCast_self]
  rfl

/-- Row `b` of the 4×1024 accumulator, as a rectangle. -/
abbrev rowR0 : Rect S4x1024 := Rect.unit (s := S4x1024) ![0, 0] S1x1024.size inb_S4x1024_S1x1024_0_0
abbrev rowR1 : Rect S4x1024 := Rect.unit (s := S4x1024) ![1, 0] S1x1024.size inb_S4x1024_S1x1024_1_0
abbrev rowR2 : Rect S4x1024 := Rect.unit (s := S4x1024) ![2, 0] S1x1024.size inb_S4x1024_S1x1024_2_0
abbrev rowR3 : Rect S4x1024 := Rect.unit (s := S4x1024) ![3, 0] S1x1024.size inb_S4x1024_S1x1024_3_0

/-- The four row stores of one grid point over an accumulator `acc`, last store first: row `b` is stored
    with `acc`'s row `b` plus batch row `b`'s contribution of the tile. -/
def accPieces (acc : Vec F S4x1024 .f32) (x0 x1 : Vec F S128x4x1024 .f32) (x2 : Vec F S1024x1024 .bf16) (x3 : Vec F S1x1024 .f32) (x4 : Vec F S1024x1024 .bf16) (x5 : Vec F S1x1024 .f32) :
    List (View.Piece (Elt F) S4x1024 .f32) :=
  [⟨rowR3, addf (View.ld acc rowR3) (tileRow (plane3 x0) (plane3 x1) x2 x3 x4 x5)⟩,
   ⟨rowR2, addf (View.ld acc rowR2) (tileRow (plane2 x0) (plane2 x1) x2 x3 x4 x5)⟩,
   ⟨rowR1, addf (View.ld acc rowR1) (tileRow (plane1 x0) (plane1 x1) x2 x3 x4 x5)⟩,
   ⟨rowR0, addf (View.ld acc rowR0) (tileRow (plane0 x0) (plane0 x1) x2 x3 x4 x5)⟩]

/-- At a later point the scratch is left at the four row stores over what it held. -/
theorem sout0_B_eq (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) :
    sout0_B c i arg1 harg1 arg2 harg2 arg3 harg3 arg4 harg4 arg5 harg5 arg6 harg6 arg7 harg7 arg8 harg8 hc0 x0 x1 x2 x3 x4 x5 xs0 = View.canon (accPieces xs0 x0 x1 x2 x3 x4 x5) := by
  unfold sout0_B
  rw [View.read_writes_eq_canon _ _ _ (scover0_B c i arg1 harg1 arg2 harg2 arg3 harg3 arg4 harg4 arg5 harg5 arg6 harg6 arg7 harg7 arg8 harg8 hc0 x0 x1 x2 x3 x4 x5 xs0)]
  unfold kernelRun0_B
  dsimp only
  sl_unfold_words
  simp only [View.readAt_eq_ld, harg1.read_unread, harg2.read_unread, harg3.read_unread, harg4.read_unread, harg5.read_unread, harg6.read_unread, harg8.read_unread,
    View.ld_unit_zero (S := S128x4x1024) hz3, View.ld_unit_zero (S := S1024x1024) hz2, View.ld_unit_zero (S := S1x1024) hz2,
    pay_row0, pay_row1, pay_row2, pay_row3]
  rfl

section Helpers
variable {sg : RefSig} {κ : Kind} {sp : Space} {e : EltTy} {Val : EltTy → Type} [∀ e, Nonempty (Val e)]

/-- A load of one row after stores the last of which went to another row reads what the earlier stores left. -/
theorem readCov_skip_row (v : View sg κ sp S4x1024 e) (b b' : ℕ) (inb : ∀ a, ![b, 0] a + S1x1024.size a ≤ S4x1024.size a)
    (inb' : ∀ a, ![b', 0] a + S1x1024.size a ≤ S4x1024.size a) (hbb : b ≠ b') (w : S1x1024.Idx → Val e) (L : List (View.Piece Val S4x1024 e)) :
    v.readCov ((⟨Rect.unit (s := S4x1024) ![b, 0] S1x1024.size inb, w⟩ : View.Piece Val S4x1024 e) :: L) (Rect.unit (s := S4x1024) ![b', 0] S1x1024.size inb').toLoadRect
      = v.readCov L (Rect.unit (s := S4x1024) ![b', 0] S1x1024.size inb').toLoadRect := by
  rw [View.readCov_eq_canon', View.readCov_eq_canon']
  funext j
  refine View.canon_cons_of_not_mem _ L ?_
  rw [Rect.mem_set_unit]
  intro h
  have hj : (j 0).val < 1 := (j 0).isLt
  have h0 : b ≤ b' + 1 * (j 0).val ∧ b' + 1 * (j 0).val < b + 1 := h 0
  omega

/-- A load through a rectangle after ONE whole store reads the stored payload through the rectangle. -/
theorem readCov_whole_ld (v : View sg κ sp S4x1024 e) (inb : ∀ a, ![0, 0] a + S4x1024.size a ≤ S4x1024.size a)
    (w : S4x1024.Idx → Val e) (r : Rect S4x1024) :
    v.readCov [(⟨Rect.unit (s := S4x1024) ![0, 0] S4x1024.size inb, w⟩ : View.Piece Val S4x1024 e)] r.toLoadRect = View.ld w r := by
  rw [View.readCov_eq_canon', View.canon_unit_zero hz2]

/-- A load of one row after ONE whole store reads the stored payload's row. -/
theorem readCov_whole_row (v : View sg κ sp S4x1024 e) (inb : ∀ a, ![0, 0] a + S4x1024.size a ≤ S4x1024.size a)
    (w : S4x1024.Idx → Val e) (b : ℕ) (inb' : ∀ a, ![b, 0] a + S1x1024.size a ≤ S4x1024.size a) :
    v.readCov [(⟨Rect.unit (s := S4x1024) ![0, 0] S4x1024.size inb, w⟩ : View.Piece Val S4x1024 e)] (Rect.unit (s := S4x1024) ![b, 0] S1x1024.size inb').toLoadRect
      = View.ld w (Rect.unit (s := S4x1024) ![b, 0] S1x1024.size inb') :=
  readCov_whole_ld v inb w _

/-- A whole load after stores reads what the stores left. -/
theorem readCov_whole_box (v : View sg κ sp S4x1024 e) (inb : ∀ a, ![0, 0] a + S4x1024.size a ≤ S4x1024.size a)
    (L : List (View.Piece Val S4x1024 e)) :
    v.readCov L (Rect.unit (s := S4x1024) ![0, 0] S4x1024.size inb).toLoadRect = View.canon L := by
  rw [View.readCov_eq_canon']
  exact View.ld_unit_zero (S := S4x1024) hz2 inb (View.canon L)

end Helpers

/-- At the first point the scratch is left at the zero store overlaid by the four row stores over zero. -/
theorem sout0_A_eq (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) :
    sout0_A c i arg1 harg1 arg2 harg2 arg3 harg3 arg4 harg4 arg5 harg5 arg6 harg6 arg7 harg7 arg8 harg8 hc0 x0 x1 x2 x3 x4 x5
      = View.canon (accPieces (k0_pay1 (F := F)) x0 x1 x2 x3 x4 x5 ++ [⟨Rect.unit (s := S4x1024) ![0, 0] S4x1024.size inb_S4x1024_S4x1024_0_0, k0_pay1 (F := F)⟩]) := by
  unfold sout0_A
  rw [View.read_writes_eq_canon _ _ _ (scover0_A c i arg1 harg1 arg2 harg2 arg3 harg3 arg4 harg4 arg5 harg5 arg6 harg6 arg7 harg7 arg8 harg8 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread,
    View.ld_unit_zero (S := S128x4x1024) hz3, View.ld_unit_zero (S := S1024x1024) hz2, View.ld_unit_zero (S := S1x1024) hz2,
    readCov_skip_row _ 0 1 _ _ (by decide), readCov_skip_row _ 0 2 _ _ (by decide), readCov_skip_row _ 0 3 _ _ (by decide),
    readCov_skip_row _ 1 2 _ _ (by decide), readCov_skip_row _ 1 3 _ _ (by decide), readCov_skip_row _ 2 3 _ _ (by decide),
    pay_row0, pay_row1, pay_row2, pay_row3]
  rw [readCov_whole_row, readCov_whole_row, readCov_whole_row, readCov_whole_row]
  rfl

/-- At a later point the output block's buffer is left at a copy of the scratch. -/
theorem out0_B_6_eq (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) (xs0 : Vec F S4x1024 .f32) :
    out0_B_6 c i arg1 harg1 arg2 harg2 arg3 harg3 arg4 harg4 arg5 harg5 arg6 harg6 arg7 harg7 arg8 harg8 hc0 x0 x1 x2 x3 x4 x5 xs0 = View.canon (accPieces xs0 x0 x1 x2 x3 x4 x5) := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xs0)]
  unfold kernelRun0_B
  dsimp only
  sl_unfold_words
  rw [View.canon_unit_zero hz2, readCov_whole_box]
  simp only [View.readAt_eq_ld, harg1.read_unread, harg2.read_unread, harg3.read_unread, harg4.read_unread, harg5.read_unread, harg6.read_unread, harg8.read_unread,
    View.ld_unit_zero (S := S128x4x1024) hz3, View.ld_unit_zero (S := S1024x1024) hz2, View.ld_unit_zero (S := S1x1024) hz2,
    pay_row0, pay_row1, pay_row2, pay_row3]
  rfl

/-- At the first point too. -/
theorem out0_A_6_eq (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec F S128x4x1024 .f32) (x1 : Vec F S128x4x1024 .f32) (x2 : Vec F S1024x1024 .bf16) (x3 : Vec F S1x1024 .f32) (x4 : Vec F S1024x1024 .bf16) (x5 : Vec F S1x1024 .f32) :
    out0_A_6 c i arg1 harg1 arg2 harg2 arg3 harg3 arg4 harg4 arg5 harg5 arg6 harg6 arg7 harg7 arg8 harg8 hc0 x0 x1 x2 x3 x4 x5
      = View.canon (accPieces (k0_pay1 (F := F)) x0 x1 x2 x3 x4 x5 ++ [⟨Rect.unit (s := S4x1024) ![0, 0] S4x1024.size inb_S4x1024_S4x1024_0_0, k0_pay1 (F := F)⟩]) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero hz2, readCov_whole_box]
  simp only [View.readAt_eq_ld, harg1.read_unread, harg2.read_unread, harg3.read_unread, harg4.read_unread, harg5.read_unread, harg6.read_unread,
    View.ld_unit_zero (S := S128x4x1024) hz3, View.ld_unit_zero (S := S1024x1024) hz2, View.ld_unit_zero (S := S1x1024) hz2,
    readCov_skip_row _ 0 1 _ _ (by decide), readCov_skip_row _ 0 2 _ _ (by decide), readCov_skip_row _ 0 3 _ _ (by decide),
    readCov_skip_row _ 1 2 _ _ (by decide), readCov_skip_row _ 1 3 _ _ (by decide), readCov_skip_row _ 2 3 _ _ (by decide),
    pay_row0, pay_row1, pay_row2, pay_row3]
  rw [readCov_whole_row, readCov_whole_row, readCov_whole_row, readCov_whole_row]
  rfl

/-! ## The four row stores read at an index -/

section Rows
variable {Val : EltTy → Type} [∀ e, Nonempty (Val e)] {e : EltTy}

/-- Feature `f` of row `b`'s rectangle is entry (b, f) of the accumulator. -/
theorem row_emb (b : ℕ) (hb : b < 4) (inb : ∀ a, ![b, 0] a + S1x1024.size a ≤ S4x1024.size a) (f : Fin 1024) :
    (Rect.unit (s := S4x1024) ![b, 0] S1x1024.size inb).emb (ix2 (0 : Fin 1) f) = ix2 (⟨b, hb⟩ : Fin 4) f := by
  funext a
  apply Fin.ext
  match a with
  | ⟨0, _⟩ => show b + 1 * 0 = b; omega
  | ⟨1, _⟩ => show 0 + 1 * f.val = f.val; omega

/-- Entry (b, f) is outside every other row's rectangle. -/
theorem row_not_mem (b b' : ℕ) (hb : b < 4) (hbb : b ≠ b') (inb' : ∀ a, ![b', 0] a + S1x1024.size a ≤ S4x1024.size a) (f : Fin 1024) :
    (ix2 (⟨b, hb⟩ : Fin 4) f : S4x1024.Idx) ∉ (Rect.unit (s := S4x1024) ![b', 0] S1x1024.size inb').set := by
  rw [Rect.mem_set_unit]
  intro h
  have h0 : b' ≤ b ∧ b < b' + 1 := h 0
  omega

theorem canon_row3 (p0 p1 p2 p3 : S1x1024.Idx → Val e) (L : List (View.Piece Val S4x1024 e)) (f : Fin 1024) (h : 3 < 4) :
    View.canon ((⟨rowR3, p3⟩ : View.Piece Val S4x1024 e) :: ⟨rowR2, p2⟩ :: ⟨rowR1, p1⟩ :: ⟨rowR0, p0⟩ :: L) (ix2 (⟨3, h⟩ : Fin 4) f) = p3 (ix2 (0 : Fin 1) f) := by
  rw [← row_emb 3 h inb_S4x1024_S1x1024_3_0 f]
  exact View.canon_cons_emb rowR3 p3 _ _

theorem canon_row2 (p0 p1 p2 p3 : S1x1024.Idx → Val e) (L : List (View.Piece Val S4x1024 e)) (f : Fin 1024) (h : 2 < 4) :
    View.canon ((⟨rowR3, p3⟩ : View.Piece Val S4x1024 e) :: ⟨rowR2, p2⟩ :: ⟨rowR1, p1⟩ :: ⟨rowR0, p0⟩ :: L) (ix2 (⟨2, h⟩ : Fin 4) f) = p2 (ix2 (0 : Fin 1) f) := by
  refine (View.canon_cons_of_not_mem (⟨rowR3, p3⟩ : View.Piece Val S4x1024 e) (⟨rowR2, p2⟩ :: ⟨rowR1, p1⟩ :: ⟨rowR0, p0⟩ :: L) (row_not_mem 2 3 h (by decide) inb_S4x1024_S1x1024_3_0 f)).trans ?_
  rw [← row_emb 2 h inb_S4x1024_S1x1024_2_0 f]
  exact View.canon_cons_emb rowR2 p2 _ _

theorem canon_row1 (p0 p1 p2 p3 : S1x1024.Idx → Val e) (L : List (View.Piece Val S4x1024 e)) (f : Fin 1024) (h : 1 < 4) :
    View.canon ((⟨rowR3, p3⟩ : View.Piece Val S4x1024 e) :: ⟨rowR2, p2⟩ :: ⟨rowR1, p1⟩ :: ⟨rowR0, p0⟩ :: L) (ix2 (⟨1, h⟩ : Fin 4) f) = p1 (ix2 (0 : Fin 1) f) := by
  refine (View.canon_cons_of_not_mem (⟨rowR3, p3⟩ : View.Piece Val S4x1024 e) (⟨rowR2, p2⟩ :: ⟨rowR1, p1⟩ :: ⟨rowR0, p0⟩ :: L) (row_not_mem 1 3 h (by decide) inb_S4x1024_S1x1024_3_0 f)).trans ?_
  refine (View.canon_cons_of_not_mem (⟨rowR2, p2⟩ : View.Piece Val S4x1024 e) (⟨rowR1, p1⟩ :: ⟨rowR0, p0⟩ :: L) (row_not_mem 1 2 h (by decide) inb_S4x1024_S1x1024_2_0 f)).trans ?_
  rw [← row_emb 1 h inb_S4x1024_S1x1024_1_0 f]
  exact View.canon_cons_emb rowR1 p1 _ _

theorem canon_row0 (p0 p1 p2 p3 : S1x1024.Idx → Val e) (L : List (View.Piece Val S4x1024 e)) (f : Fin 1024) (h : 0 < 4) :
    View.canon ((⟨rowR3, p3⟩ : View.Piece Val S4x1024 e) :: ⟨rowR2, p2⟩ :: ⟨rowR1, p1⟩ :: ⟨rowR0, p0⟩ :: L) (ix2 (⟨0, h⟩ : Fin 4) f) = p0 (ix2 (0 : Fin 1) f) := by
  refine (View.canon_cons_of_not_mem (⟨rowR3, p3⟩ : View.Piece Val S4x1024 e) (⟨rowR2, p2⟩ :: ⟨rowR1, p1⟩ :: ⟨rowR0, p0⟩ :: L) (row_not_mem 0 3 h (by decide) inb_S4x1024_S1x1024_3_0 f)).trans ?_
  refine (View.canon_cons_of_not_mem (⟨rowR2, p2⟩ : View.Piece Val S4x1024 e) (⟨rowR1, p1⟩ :: ⟨rowR0, p0⟩ :: L) (row_not_mem 0 2 h (by decide) inb_S4x1024_S1x1024_2_0 f)).trans ?_
  refine (View.canon_cons_of_not_mem (⟨rowR1, p1⟩ : View.Piece Val S4x1024 e) (⟨rowR0, p0⟩ :: L) (row_not_mem 0 1 h (by decide) inb_S4x1024_S1x1024_1_0 f)).trans ?_
  rw [← row_emb 0 h inb_S4x1024_S1x1024_0_0 f]
  exact View.canon_cons_emb rowR0 p0 _ _

end Rows

/-- Position `r` of a tile's term for batch row `b` and feature `f`: the projected key of that position
    and batch row (the tile's key plane against the key weight, plus the key bias) divided by its Euclidean
    length, at feature `f`, times the projected value there. -/
def tileTerm (x0 x1 : FVec Ideal S128x4x1024 .f32) (x2 : FVec Ideal S1024x1024 .bf16) (x3 : FVec Ideal S1x1024 .f32)
    (x4 : FVec Ideal S1024x1024 .bf16) (x5 : FVec Ideal S1x1024 .f32) (b : Fin 4) (f : Fin 1024) (r : Fin 128) : EReal :=
  Cert.HydraSpec.unit (fun f' : Fin 1024 => (∑ e : Fin 1024, x0 (ix3 r b e) * x2 (ix2 e f')) + x3 (ix2 (0 : Fin 1) f')) f
    * ((∑ e : Fin 1024, x1 (ix3 r b e) * x4 (ix2 e f)) + x5 (ix2 (0 : Fin 1) f))

/-! ## Read at an index, over the extended reals -/

/-- A batch row's contribution of a tile at feature `f`: the sum over the 128 positions of the normalised
    projected key row times the projected value row, both at `f`. -/
theorem tileRow_apply (pk pv : FVec Ideal S128x1024 .f32) (wk : FVec Ideal S1024x1024 .bf16) (bk : FVec Ideal S1x1024 .f32)
    (wv : FVec Ideal S1024x1024 .bf16) (bv : FVec Ideal S1x1024 .f32) (f : Fin 1024) :
    tileRow (F := Ideal) pk pv wk bk wv bv (ix2 (0 : Fin 1) f)
      = ∑ r : Fin 128, Cert.HydraSpec.unit (fun f' : Fin 1024 => (∑ e : Fin 1024, pk (ix2 r e) * wk (ix2 e f')) + bk (ix2 (0 : Fin 1) f')) f
          * ((∑ e : Fin 1024, pv (ix2 r e) * wv (ix2 e f)) + bv (ix2 (0 : Fin 1) f)) := by
  unfold tileRow
  rw [colSumF_apply]
  refine Finset.sum_congr rfl fun r _ => ?_
  rw [mulf_apply, unitF_apply, projF_apply]
  simp only [projF_apply]

/-- The four row stores over `acc` (whatever was stored before them) read at (b, f): `acc` there plus the
    tile's 128 terms for batch row `b`. -/
theorem accPieces_apply (acc : FVec Ideal S4x1024 .f32) (x0 x1 : FVec Ideal S128x4x1024 .f32) (x2 : FVec Ideal S1024x1024 .bf16) (x3 : FVec Ideal S1x1024 .f32)
    (x4 : FVec Ideal S1024x1024 .bf16) (x5 : FVec Ideal S1x1024 .f32) (L : List (View.Piece (Elt Ideal) S4x1024 .f32)) (b : Fin 4) (f : Fin 1024) :
    View.canon (accPieces (F := Ideal) acc x0 x1 x2 x3 x4 x5 ++ L) (ix2 b f)
      = acc (ix2 b f) + ∑ r : Fin 128, tileTerm x0 x1 x2 x3 x4 x5 b f r := by
  unfold accPieces
  simp only [List.cons_append, List.nil_append]
  match b with
  | ⟨0, h⟩ =>
    refine (canon_row0 _ _ _ _ L f h).trans ?_
    rw [addf_apply, tileRow_apply]
    refine congrArg₂ (· + ·) ?_ (Finset.sum_congr rfl fun r _ => ?_)
    · show acc (rowR0.emb (ix2 (0 : Fin 1) f)) = _
      rw [row_emb 0 h inb_S4x1024_S1x1024_0_0 f]
    · unfold tileTerm
      simp only [plane0_apply]
      rfl
  | ⟨1, h⟩ =>
    refine (canon_row1 _ _ _ _ L f h).trans ?_
    rw [addf_apply, tileRow_apply]
    refine congrArg₂ (· + ·) ?_ (Finset.sum_congr rfl fun r _ => ?_)
    · show acc (rowR1.emb (ix2 (0 : Fin 1) f)) = _
      rw [row_emb 1 h inb_S4x1024_S1x1024_1_0 f]
    · unfold tileTerm
      simp only [plane1_apply]
      rfl
  | ⟨2, h⟩ =>
    refine (canon_row2 _ _ _ _ L f h).trans ?_
    rw [addf_apply, tileRow_apply]
    refine congrArg₂ (· + ·) ?_ (Finset.sum_congr rfl fun r _ => ?_)
    · show acc (rowR2.emb (ix2 (0 : Fin 1) f)) = _
      rw [row_emb 2 h inb_S4x1024_S1x1024_2_0 f]
    · unfold tileTerm
      simp only [plane2_apply]
      rfl
  | ⟨3, h⟩ =>
    refine (canon_row3 _ _ _ _ L f h).trans ?_
    rw [addf_apply, tileRow_apply]
    refine congrArg₂ (· + ·) ?_ (Finset.sum_congr rfl fun r _ => ?_)
    · show acc (rowR3.emb (ix2 (0 : Fin 1) f)) = _
      rw [row_emb 3 h inb_S4x1024_S1x1024_3_0 f]
    · unfold tileTerm
      simp only [plane3_apply]
      rfl

/-- The reset stores zero everywhere. -/
theorem k0_pay1_apply (j : S4x1024.Idx) : (k0_pay1 (F := Ideal)) j = 0 := by
  unfold k0_pay1
  rw [shapeCast_self]
  exact Ideal.ofBits_zero_f32
/-- The first point leaves in the scratch, at (b, f), zero plus the tile's 128 terms. -/
theorem sout0_A_apply (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec Ideal S128x4x1024 .f32) (x1 : Vec Ideal S128x4x1024 .f32) (x2 : Vec Ideal S1024x1024 .bf16) (x3 : Vec Ideal S1x1024 .f32) (x4 : Vec Ideal S1024x1024 .bf16) (x5 : Vec Ideal S1x1024 .f32) (b : Fin 4) (f : Fin 1024) :
    sout0_A (F := Ideal) c i arg1 harg1 arg2 harg2 arg3 harg3 arg4 harg4 arg5 harg5 arg6 harg6 arg7 harg7 arg8 harg8 hc0 x0 x1 x2 x3 x4 x5 (ix2 b f) = 0 + ∑ r : Fin 128, tileTerm x0 x1 x2 x3 x4 x5 b f r := by
  rw [sout0_A_eq, accPieces_apply, k0_pay1_apply]

/-- A later point leaves in the scratch, at (b, f), what it held there plus the tile's 128 terms. -/
theorem sout0_B_apply (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec Ideal S128x4x1024 .f32) (x1 : Vec Ideal S128x4x1024 .f32) (x2 : Vec Ideal S1024x1024 .bf16) (x3 : Vec Ideal S1x1024 .f32) (x4 : Vec Ideal S1024x1024 .bf16) (x5 : Vec Ideal S1x1024 .f32) (xs0 : Vec Ideal S4x1024 .f32) (b : Fin 4) (f : Fin 1024) :
    sout0_B (F := Ideal) c i arg1 harg1 arg2 harg2 arg3 harg3 arg4 harg4 arg5 harg5 arg6 harg6 arg7 harg7 arg8 harg8 hc0 x0 x1 x2 x3 x4 x5 xs0 (ix2 b f) = xs0 (ix2 b f) + ∑ r : Fin 128, tileTerm x0 x1 x2 x3 x4 x5 b f r := by
  have h := accPieces_apply xs0 x0 x1 x2 x3 x4 x5 [] b f
  rw [List.append_nil] at h
  rw [sout0_B_eq]
  exact h

/-- The output block's buffer after the first point is a copy of the scratch. -/
theorem out0_A_6_apply (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : cond0_0 i) (x0 : Vec Ideal S128x4x1024 .f32) (x1 : Vec Ideal S128x4x1024 .f32) (x2 : Vec Ideal S1024x1024 .bf16) (x3 : Vec Ideal S1x1024 .f32) (x4 : Vec Ideal S1024x1024 .bf16) (x5 : Vec Ideal S1x1024 .f32) (b : Fin 4) (f : Fin 1024) :
    out0_A_6 (F := Ideal) c i arg1 harg1 arg2 harg2 arg3 harg3 arg4 harg4 arg5 harg5 arg6 harg6 arg7 harg7 arg8 harg8 hc0 x0 x1 x2 x3 x4 x5 (ix2 b f) = 0 + ∑ r : Fin 128, tileTerm x0 x1 x2 x3 x4 x5 b f r := by
  rw [out0_A_6_eq, accPieces_apply, k0_pay1_apply]

/-- The output block's buffer after a later point is a copy of the scratch. -/
theorem out0_B_6_apply (c : Dev nD) (i : grid0.Coords) (arg1 : Memref sig .tc .vmem S128x4x1024 .f32) (harg1 : arg1.IsWhole) (arg2 : Memref sig .tc .vmem S128x4x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x1024 .f32) (harg7 : arg7.IsWhole) (arg8 : Memref sig .tc .vmem S4x1024 .f32) (harg8 : arg8.IsWhole) (hc0 : ¬cond0_0 i) (x0 : Vec Ideal S128x4x1024 .f32) (x1 : Vec Ideal S128x4x1024 .f32) (x2 : Vec Ideal S1024x1024 .bf16) (x3 : Vec Ideal S1x1024 .f32) (x4 : Vec Ideal S1024x1024 .bf16) (x5 : Vec Ideal S1x1024 .f32) (xs0 : Vec Ideal S4x1024 .f32) (b : Fin 4) (f : Fin 1024) :
    out0_B_6 (F := Ideal) c i arg1 harg1 arg2 harg2 arg3 harg3 arg4 harg4 arg5 harg5 arg6 harg6 arg7 harg7 arg8 harg8 hc0 x0 x1 x2 x3 x4 x5 xs0 (ix2 b f) = xs0 (ix2 b f) + ∑ r : Fin 128, tileTerm x0 x1 x2 x3 x4 x5 b f r := by
  have h := accPieces_apply xs0 x0 x1 x2 x3 x4 x5 [] b f
  rw [List.append_nil] at h
  rw [out0_B_6_eq]
  exact h

end Cert.KernelIdeal.Run

end
-- ==== Proof.PartialSum.lean ====
/-
  Partial sums of a sum over 8192 sequence positions, taken 128 positions (one tile) at a time: the sum over
  the first 128·(n+1) positions is the sum over the first 128·n plus the n-th tile's 128 terms; no positions
  give zero, and 64 tiles give the whole sum.  Sums are over an additive commutative monoid (the extended
  reals), so nothing about finiteness is needed.
-/
import Idealize.ShloMosaic.PureOps.Ideal
import Mathlib.Algebra.BigOperators.Fin
import Mathlib.Algebra.BigOperators.Intervals

noncomputable section

namespace Cert.HydraSpec

/-- The sum of `g` over the positions below `n`. -/
def partialSum (g : Fin 8192 → EReal) (n : ℕ) : EReal :=
  ∑ s ∈ Finset.range n, (if h : s < 8192 then g ⟨s, h⟩ else 0)

theorem partialSum_zero (g : Fin 8192 → EReal) : partialSum g 0 = 0 := by
  unfold partialSum
  exact Finset.sum_range_zero _

/-- One more tile. -/
theorem partialSum_tile (g : Fin 8192 → EReal) (n : ℕ) (hn : n < 64) :
    partialSum g (128 * (n + 1)) = partialSum g (128 * n) + ∑ r : Fin 128, g ⟨128 * n + r.val, by have := r.isLt; omega⟩ := by
  unfold partialSum
  rw [show 128 * (n + 1) = 128 * n + 128 by omega, Finset.sum_range_add]
  refine congrArg (_ + ·) ?_
  rw [Finset.sum_range]
  exact Finset.sum_congr rfl fun r _ => dif_pos (by have := r.isLt; omega)

/-- All 64 tiles. -/
theorem partialSum_all (g : Fin 8192 → EReal) : partialSum g (128 * 64) = ∑ s : Fin 8192, g s := by
  unfold partialSum
  rw [show 128 * 64 = 8192 from rfl, Finset.sum_range]
  exact Finset.sum_congr rfl fun s _ => dif_pos s.isLt

end Cert.HydraSpec

end
-- ==== Proof.KernelIdeal.KvValue.lean ====
/-
  Region 0's result: after the last grid point the key·value array holds, at (b, f), the sum over all 8192
  sequence positions of (normalised projected key) · (projected value).  After grid point n the scratch
  accumulator holds the partial sum over the first 128·(n+1) positions: point 0 stores zero and adds tile
  0's 128 terms, every later point adds its own tile's 128 terms to what the point before left; the
  output block's buffer is a copy of the accumulator, written back once after the last point.
-/
import proofs.«124462_j10599979287185_1_alg».proof.Proof.KernelIdeal.Vals
import proofs.«124462_j10599979287185_1_alg».proof.Proof.KernelIdeal.RowMath
import proofs.«124462_j10599979287185_1_alg».proof.Proof.KernelIdeal.HostArrays
import proofs.«124462_j10599979287185_1_alg».proof.Proof.KernelIdeal.BlockReads
import proofs.«124462_j10599979287185_1_alg».proof.Proof.KernelIdeal.KvPieces
import proofs.«124462_j10599979287185_1_alg».proof.Proof.PartialSum
import proofs.«124462_j10599979287185_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Run

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The array after the region is the block written back at the last point -/

section LastPoint
variable {F : FTy → Type} [FloatOps F]
variable (V : (c : Dev nD) → (b : Ref sig .tc) → Buf (Elt F) ((c : Thread nD τ).loc b))

/-- The last grid point. -/
theorem lt63 : 63 < cfg0.N := by rw [show cfg0.N = 64 from N_0]; decide
abbrev t63 : Fin cfg0.N := ⟨63, lt63⟩

/-- The only point that writes the output block back is the last. -/
theorem flush6_last (t : Fin cfg0.N) (hf : (cfg0.win 6).flush t = true) : t = t63 := by
  have hN : cfg0.N = 64 := N_0
  have h63 : t.val = 63 := by have := (flush0_6 t).mp hf; have := t.isLt; omega
  exact Fin.ext h63

/-- The output window's one block is the whole 4×1024 array: read through it, contents are themselves. -/
theorem read_blk6 (c : Dev nD) (X : Buf (Elt F) ((c : Thread nD τ).loc main_v18)) :
    ((cfg0.win 6).blk t63).view.read (Elt F) X = X := by
  have hz' : (fun a => win0_6.index t63 a * main_v18.ty.shape.size a) = fun _ => 0 := funext fun a => by fin_cases a <;> decide +kernel
  exact Memref.read_access_unit_zero (Elt F) main_v18 hz' (fun a => by rw [congrFun hz' a]; simp) X

/-- What the write-back moves is all of the buffer, and that is the buffer read through the block. -/
theorem cut6_read (c : Dev nD) (X : Buf (Elt F) ((c : Thread nD τ).loc main_v18)) :
    (cfg0.win 6).cut (grid0.coords t63) X = ((cfg0.win 6).blk t63).view.read (Elt F) X := (read_blk6 c X).symm

/-- What the last point writes back. -/
theorem flushed6_last (c : Dev nD) :
    (dat0 V c).flushed 6 t63 = ((cfg0.win 6).blk t63).view.read (Elt F) ((outsAt0 V c 63 lt63).1) :=
  (congrArg ((cfg0.win 6).cut (grid0.coords t63)) (after0_6 V c t63)).trans (cut6_read c _)

/-- The one write-back writes the output buffer's contents after the last point. -/
theorem flushed6_eq (c : Dev nD) (t : Fin cfg0.N) (hf : (cfg0.win 6).flush t = true) :
    (dat0 V c).flushed 6 t = ((cfg0.win 6).blk t).view.read (Elt F) ((outsAt0 V c 63 lt63).1) := by
  rw [flush6_last t hf]
  exact flushed6_last V c

/-- So the key·value array ends holding what the output buffer holds after the last point. -/
theorem arr6_final (c : Dev nD) : (dat0 V c).arrAt 6 cfg0.N = (outsAt0 V c 63 lt63).1 :=
  (dat0 V c).arrAt_eq_of_cover 6 ((outsAt0 V c 63 lt63).1) (flushed6_eq V c) fun i =>
    ⟨t63, (flush0_6 t63).mpr rfl, by
      show i ∈ ((View.whole main_v18).slice (win0_6.rect t63)).set
      rw [View.set_slice_whole, Rect.mem_set_unit]
      intro a
      have h0 : (i 0 : Nat) < 4 := (i 0).isLt
      have h1 : (i 1 : Nat) < 1024 := (i 1).isLt
      match a with
      | ⟨0, _⟩ => show win0_6.index t63 0 * win0_6.size 0 ≤ (i 0 : Nat) ∧ (i 0 : Nat) < win0_6.index t63 0 * win0_6.size 0 + win0_6.xsize (grid0.coords t63) 0
                  rw [show win0_6.index t63 0 * win0_6.size 0 = 0 from by decide +kernel, show win0_6.xsize (grid0.coords t63) 0 = 4 from by decide +kernel]; omega
      | ⟨1, _⟩ => show win0_6.index t63 1 * win0_6.size 1 ≤ (i 1 : Nat) ∧ (i 1 : Nat) < win0_6.index t63 1 * win0_6.size 1 + win0_6.xsize (grid0.coords t63) 1
                  rw [show win0_6.index t63 1 * win0_6.size 1 = 0 from by decide +kernel, show win0_6.xsize (grid0.coords t63) 1 = 1024 from by decide +kernel]; omega⟩

end LastPoint

/-! ## A tile's terms are the specification's -/

section Terms

/-- Position `r` of a tile's term is the specification's term at sequence position `s`, when row `r` of the
    tile's key and value planes are the key and value tokens at `s` and the weights and biases are the
    key and value thirds of the packed projection. -/
theorem tileTerm_spec (key value : Cert.HydraSpec.Tok.Idx → EReal) (w : Cert.HydraSpec.WIn.Idx → EReal) (β : Cert.HydraSpec.BIn.Idx → EReal)
    (b : Fin 4) (f : Fin 1024) (s : Fin 8192) (r : Fin 128)
    (x0 x1 : FVec Ideal S128x4x1024 .f32) (x2 : FVec Ideal S1024x1024 .bf16) (x3 : FVec Ideal S1x1024 .f32)
    (x4 : FVec Ideal S1024x1024 .bf16) (x5 : FVec Ideal S1x1024 .f32)
    (h0 : ∀ e : Fin 1024, x0 (ix3 r b e) = key (ix3 s b e))
    (h1 : ∀ e : Fin 1024, x1 (ix3 r b e) = value (ix3 s b e))
    (h2 : ∀ e f' : Fin 1024, x2 (ix2 e f') = w (ix2 (Cert.HydraSpec.row 1024 (by decide) f') e))
    (h3 : ∀ f' : Fin 1024, x3 (ix2 (0 : Fin 1) f') = β (ix1 (Cert.HydraSpec.row 1024 (by decide) f')))
    (h4 : ∀ e f' : Fin 1024, x4 (ix2 e f') = w (ix2 (Cert.HydraSpec.row 2048 (by decide) f') e))
    (h5 : ∀ f' : Fin 1024, x5 (ix2 (0 : Fin 1) f') = β (ix1 (Cert.HydraSpec.row 2048 (by decide) f'))) :
    tileTerm x0 x1 x2 x3 x4 x5 b f r = Cert.HydraSpec.kvTerm key value w β b f s := by
  unfold tileTerm
  simp only [h0, h1, h2, h3, h4, h5]
  rfl

end Terms

/-! ## The accumulator after each point -/

section Accumulate
variable (m : (ℓ : Loc nD τ sig) → Buf (Elt Ideal) ℓ) (ρ : Dev nD → PrngReg)

/-- The specification's term for batch row `b` and feature `f`, as a function of the sequence position. -/
abbrev term (c : Dev nD) (b : Fin 4) (f : Fin 1024) : Fin 8192 → EReal :=
  Cert.HydraSpec.kvTerm (m ((c : Thread nD τ).loc main_arg1)) (m ((c : Thread nD τ).loc main_arg2)) (m ((c : Thread nD τ).loc main_arg3)) (m ((c : Thread nD τ).loc main_arg4)) b f

/-- The 128 terms of the tile at point `t` are the specification's terms at positions `128·t + r`. -/
theorem tile_sum (c : Dev nD) (t : Fin cfg0.N) (b : Fin 4) (f : Fin 1024) :
    ∑ r : Fin 128, tileTerm (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) b f r
      = ∑ r : Fin 128, term m c b f ⟨128 * t.val + r.val, by have h1 := t.isLt; have h2 : cfg0.N = 64 := N_0; have h3 := r.isLt; omega⟩ :=
  Finset.sum_congr rfl fun r _ => tileTerm_spec _ _ _ _ b f _ r _ _ _ _ _ _
    (fun e => (iblk0_0_apply (V1 m ρ) c t r b e).trans (congrFun (V1_arg1 m ρ c) _))
    (fun e => (iblk0_1_apply (V1 m ρ) c t r b e).trans (congrFun (V1_arg2 m ρ c) _))
    (fun e f' => (iblk0_2_apply (V1 m ρ) c t e f').trans (V1_v9 m ρ c e f'))
    (fun f' => (iblk0_3_apply (V1 m ρ) c t f').trans (V1_v15 m ρ c f'))
    (fun e f' => (iblk0_4_apply (V1 m ρ) c t e f').trans (V1_v11 m ρ c e f'))
    (fun f' => (iblk0_5_apply (V1 m ρ) c t f').trans (V1_v16 m ρ c f'))

/-- After point `n` the scratch holds, at (b, f), the partial sum over the first 128·(n+1) positions. -/
theorem acc_eq (c : Dev nD) (b : Fin 4) (f : Fin 1024) : ∀ (n : ℕ) (hn : n < cfg0.N),
    (outsAt0 (V1 m ρ) c n hn).2 (ix2 b f) = Cert.HydraSpec.partialSum (term m c b f) (128 * (n + 1))
  | 0, hn => by
    rw [outsAt0_A (V1 m ρ) c ⟨0, hn⟩ rfl]
    dsimp only
    rw [sout0_A_apply, tile_sum m ρ c ⟨0, hn⟩ b f, Cert.HydraSpec.partialSum_tile _ 0 (by omega)]
    exact congrArg (· + _) (Cert.HydraSpec.partialSum_zero _).symm
  | n + 1, hn => by
    have hN : cfg0.N = 64 := N_0
    rw [outsAt0_B (V1 m ρ) c ⟨n + 1, hn⟩ (Nat.succ_ne_zero n)]
    dsimp only
    rw [sout0_B_apply, tile_sum m ρ c ⟨n + 1, hn⟩ b f, Cert.HydraSpec.partialSum_tile _ (n + 1) (by omega)]
    exact congrArg (· + _) (acc_eq c b f n _)

/-- The output block's buffer is, after every point, a copy of the scratch. -/
theorem out_eq_acc (c : Dev nD) (b : Fin 4) (f : Fin 1024) : ∀ (n : ℕ) (hn : n < cfg0.N),
    (outsAt0 (V1 m ρ) c n hn).1 (ix2 b f) = (outsAt0 (V1 m ρ) c n hn).2 (ix2 b f)
  | 0, hn => by
    rw [outsAt0_A (V1 m ρ) c ⟨0, hn⟩ rfl]
    dsimp only
    rw [out0_A_6_apply, sout0_A_apply]
  | n + 1, hn => by
    rw [outsAt0_B (V1 m ρ) c ⟨n + 1, hn⟩ (Nat.succ_ne_zero n)]
    dsimp only
    rw [out0_B_6_apply, sout0_B_apply]

end Accumulate

variable (m : (ℓ : Loc nD τ sig) → Buf (Elt Ideal) ℓ) (ρ : Dev nD → PrngReg)

/-- The array region 0 leaves is the specification's key·value sums. -/
theorem kv_final (c : Dev nD) (b : Fin 4) (f : Fin 1024) :
    (dat0 (V1 m ρ) c).arrAt 6 cfg0.N (ix2 b f)
      = Cert.HydraSpec.kv (m ((c : Thread nD τ).loc main_arg1)) (m ((c : Thread nD τ).loc main_arg2)) (m ((c : Thread nD τ).loc main_arg3)) (m ((c : Thread nD τ).loc main_arg4)) b f := by
  rw [arr6_final, out_eq_acc, acc_eq]
  exact Cert.HydraSpec.partialSum_all _

end Cert.KernelIdeal.Run

end
-- ==== Proof.KernelIdeal.OutPieces.lean ====
/-
  What one grid point of region 1 leaves in its output block, entry by entry.

  The body's four stores fill the four batch planes of the 128×4×1024 block, plane b from offset (0, b, 0).
  The payload stored into plane b is, as row mathematics: the query tile's plane b projected by the query
  weight and bias, every row divided by its Euclidean length, multiplied entry by entry with row b of the
  key·value sums, and sent through the output projection.  Read at (r, b, g) of the block this is
  Σ_f unit(projected query row r)(f) · kv(b, f) · wo(f, g) + bo(g), which is the specification's result at
  sequence position s whenever row r of the tile is the query at s and the weights, biases and key·value
  sums are the specification's.
-/
import proofs.«124462_j10599979287185_1_alg».proof.Proof.KernelIdeal.Data
import proofs.«124462_j10599979287185_1_alg».proof.Proof.KernelIdeal.RowMath
import proofs.«124462_j10599979287185_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Run

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.KernelIdeal Cert.KernelIdeal.Gen

section Pieces
variable {F : FTy → Type} [FloatOps F]

/-! ## The body's payloads as row mathematics -/

theorem k1_pay2_id (v : Vec F S1024x1024 .bf16) : k1_pay2 v = v := shapeCast_self _ _
theorem k1_pay3_id (v : Vec F S1x1024 .f32) : k1_pay3 v = v := shapeCast_self _ _
theorem k1_pay4_id (v : Vec F S4x1024 .f32) : k1_pay4 v = v := shapeCast_self _ _
theorem k1_pay5_id (v : Vec F S1024x1024 .bf16) : k1_pay5 v = v := shapeCast_self _ _
theorem k1_pay6_id (v : Vec F S1x1024 .f32) : k1_pay6 v = v := shapeCast_self _ _

/-- One batch row's 128×1024 result: the query rows projected and divided by their lengths, times one row of the
    key·value sums, through the output projection. -/
def outRows (q : FVec F S128x1024 .f32) (kvr : FVec F S128x1024 .f32) (wq : FVec F S1024x1024 .bf16) (bq : FVec F S1x1024 .f32)
    (wo : FVec F S1024x1024 .bf16) (bo : FVec F S1x1024 .f32) : FVec F S128x1024 .f32 :=
  projF (mulf (unitF (projF q wq bq)) kvr) wo bo

theorem k1_plane0_eq (x0 : Vec F S128x4x1024 .f32) (x1 : Vec F S1024x1024 .bf16) (x2 : Vec F S1x1024 .f32) (x3 : Vec F S4x1024 .f32) (x4 : Vec F S1024x1024 .bf16) (x5 : Vec F S1x1024 .f32) :
    k1_pay7 x0 x1 x2 x3 x4 x5 = asPlane (outRows (plane0 x0) (kvRow0 (k1_pay4 x3)) (k1_pay2 x1) (k1_pay3 x2) (k1_pay5 x4) (k1_pay6 x5)) := rfl
theorem k1_plane1_eq (x0 : Vec F S128x4x1024 .f32) (x1 : Vec F S1024x1024 .bf16) (x2 : Vec F S1x1024 .f32) (x3 : Vec F S4x1024 .f32) (x4 : Vec F S1024x1024 .bf16) (x5 : Vec F S1x1024 .f32) :
    k1_pay10 (k1_pay4 x3) (k1_pay5 x4) (k1_pay6 x5) (k1_pay8 x0 x1) (k1_pay9 x2) = asPlane (outRows (plane1 x0) (kvRow1 (k1_pay4 x3)) (k1_pay2 x1) (k1_pay3 x2) (k1_pay5 x4) (k1_pay6 x5)) := rfl
theorem k1_plane2_eq (x0 : Vec F S128x4x1024 .f32) (x1 : Vec F S1024x1024 .bf16) (x2 : Vec F S1x1024 .f32) (x3 : Vec F S4x1024 .f32) (x4 : Vec F S1024x1024 .bf16) (x5 : Vec F S1x1024 .f32) :
    k1_pay11 x0 (k1_pay2 x1) (k1_pay3 x2) (k1_pay4 x3) (k1_pay5 x4) (k1_pay6 x5) = asPlane (outRows (plane2 x0) (kvRow2 (k1_pay4 x3)) (k1_pay2 x1) (k1_pay3 x2) (k1_pay5 x4) (k1_pay6 x5)) := rfl
theorem k1_plane3_eq (x0 : Vec F S128x4x1024 .f32) (x1 : Vec F S1024x1024 .bf16) (x2 : Vec F S1x1024 .f32) (x3 : Vec F S4x1024 .f32) (x4 : Vec F S1024x1024 .bf16) (x5 : Vec F S1x1024 .f32) :
    k1_pay1 (k1_pay4 x3) (k1_pay5 x4) (k1_pay6 x5) (k1_pay12 x0 (k1_pay2 x1) (k1_pay3 x2)) (k1_pay13 x0 (k1_pay2 x1) (k1_pay3 x2)) = asPlane (outRows (plane3 x0) (kvRow3 (k1_pay4 x3)) (k1_pay2 x1) (k1_pay3 x2) (k1_pay5 x4) (k1_pay6 x5)) := rfl

theorem out_zeros3 : (![0, 0, 0] : Fin 3 → Nat) = fun _ => 0 := funext fun a => by fin_cases a <;> rfl
theorem out_zeros2 : (![0, 0] : Fin 2 → Nat) = fun _ => 0 := funext fun a => by fin_cases a <;> rfl

/-! ## The four plane stores, read at an index -/

/-- The canon of a list whose last store is plane `b'` of the block, at an index of that plane: the store's payload. -/
theorem canon_outPlane_hit (b' : Nat) (inb : ∀ a, (![0, b', 0] : Fin 3 → Nat) a + (![128, 1, 1024] : Fin 3 → Nat) a ≤ S128x4x1024.size a)
    (w : Vec F S128x1x1024 .f32) (L : List (View.Piece (Elt F) S128x4x1024 .f32)) (r : Fin 128) (b : Fin 4) (g : Fin 1024) (hb : b.val = b') :
    View.canon ((⟨Rect.unit (s := S128x4x1024) ![0, b', 0] ![128, 1, 1024] inb, w⟩ : View.Piece (Elt F) S128x4x1024 .f32) :: L) (ix3 r b g) = w (ix3 r (0 : Fin 1) g) := by
  have e : (Rect.unit (s := S128x4x1024) ![0, b', 0] ![128, 1, 1024] inb).emb (ix3 r (0 : Fin 1) g) = ix3 r b g := funext fun a => Fin.ext (by
    match a with
    | ⟨0, _⟩ => show 0 + 1 * r.val = r.val; omega
    | ⟨1, _⟩ => show b' + 1 * 0 = b.val; omega
    | ⟨2, _⟩ => show 0 + 1 * g.val = g.val; omega)
  rw [← e]
  exact View.canon_cons_emb (Rect.unit (s := S128x4x1024) ![0, b', 0] ![128, 1, 1024] inb) w L (ix3 r (0 : Fin 1) g)

/-- At an index of another plane the last store is passed over. -/
theorem canon_outPlane_miss (b' : Nat) (inb : ∀ a, (![0, b', 0] : Fin 3 → Nat) a + (![128, 1, 1024] : Fin 3 → Nat) a ≤ S128x4x1024.size a)
    (w : Vec F S128x1x1024 .f32) (L : List (View.Piece (Elt F) S128x4x1024 .f32)) (r : Fin 128) (b : Fin 4) (g : Fin 1024) (hb : b.val ≠ b') :
    View.canon ((⟨Rect.unit (s := S128x4x1024) ![0, b', 0] ![128, 1, 1024] inb, w⟩ : View.Piece (Elt F) S128x4x1024 .f32) :: L) (ix3 r b g) = View.canon L (ix3 r b g) := by
  refine View.canon_cons_of_not_mem (⟨Rect.unit (s := S128x4x1024) ![0, b', 0] ![128, 1, 1024] inb, w⟩ : View.Piece (Elt F) S128x4x1024 .f32) L ?_
  show ix3 r b g ∉ (Rect.unit (s := S128x4x1024) ![0, b', 0] ![128, 1, 1024] inb).set
  rw [Rect.mem_set_unit]
  intro h
  have h1 : b' ≤ b.val ∧ b.val < b' + 1 := h 1
  omega

/-- What a point leaves in the output block's buffer: the four planes' results, last store first. -/
theorem out1_6_eq_canon (c : Dev nD) (i : grid1.Coords) (arg1 : Memref sig .tc .vmem S128x4x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S4x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S128x4x1024 .f32) (harg7 : arg7.IsWhole) (x0 : Vec F S128x4x1024 .f32) (x1 : Vec F S1024x1024 .bf16) (x2 : Vec F S1x1024 .f32) (x3 : Vec F S4x1024 .f32) (x4 : Vec F S1024x1024 .bf16) (x5 : Vec F S1x1024 .f32) :
    out1_6 c i arg1 harg1 arg2 harg2 arg3 harg3 arg4 harg4 arg5 harg5 arg6 harg6 arg7 harg7 x0 x1 x2 x3 x4 x5
      = View.canon [(⟨Rect.unit (s := S128x4x1024) ![0, 3, 0] ![128, 1, 1024] inb_S128x4x1024_S128x1x1024_0_3_0, asPlane (outRows (plane3 x0) (kvRow3 x3) x1 x2 x4 x5)⟩ : View.Piece (Elt F) S128x4x1024 .f32),
          ⟨Rect.unit (s := S128x4x1024) ![0, 2, 0] ![128, 1, 1024] inb_S128x4x1024_S128x1x1024_0_2_0, asPlane (outRows (plane2 x0) (kvRow2 x3) x1 x2 x4 x5)⟩,
          ⟨Rect.unit (s := S128x4x1024) ![0, 1, 0] ![128, 1, 1024] inb_S128x4x1024_S128x1x1024_0_1_0, asPlane (outRows (plane1 x0) (kvRow1 x3) x1 x2 x4 x5)⟩,
          ⟨Rect.unit (s := S128x4x1024) ![0, 0, 0] ![128, 1, 1024] inb_S128x4x1024_S128x1x1024_0_0_0, asPlane (outRows (plane0 x0) (kvRow0 x3) x1 x2 x4 x5)⟩] := by
  unfold out1_6
  rw [View.read_writes_eq_canon _ _ _ (cover1_6 c i arg1 harg1 arg2 harg2 arg3 harg3 arg4 harg4 arg5 harg5 arg6 harg6 arg7 harg7 x0 x1 x2 x3 x4 x5)]
  unfold kernelRun1
  dsimp only
  sl_unfold_words
  simp only [View.readAt_eq_ld, harg1.read_unread, harg2.read_unread, harg3.read_unread, harg4.read_unread, harg5.read_unread, harg6.read_unread,
    View.ld_unit_zero (S := S128x4x1024) out_zeros3, View.ld_unit_zero (S := S1024x1024) out_zeros2, View.ld_unit_zero (S := S1x1024) out_zeros2, View.ld_unit_zero (S := S4x1024) out_zeros2]
  rw [k1_plane0_eq, k1_plane1_eq, k1_plane2_eq, k1_plane3_eq]
  simp only [k1_pay2_id, k1_pay3_id, k1_pay4_id, k1_pay5_id, k1_pay6_id]

end Pieces

/-! ## The entry against the specification, over the extended reals -/

section Math

/-- One batch row's result at (r, g): the output projection of the normalised projected query row r times the
    key·value row. -/
theorem outRows_apply (q kvr : FVec Ideal S128x1024 .f32) (wq : FVec Ideal S1024x1024 .bf16) (bq : FVec Ideal S1x1024 .f32)
    (wo : FVec Ideal S1024x1024 .bf16) (bo : FVec Ideal S1x1024 .f32) (r : Fin 128) (g : Fin 1024) :
    outRows (F := Ideal) q kvr wq bq wo bo (ix2 r g)
      = (∑ f : Fin 1024, (Cert.HydraSpec.unit (fun f' : Fin 1024 => (∑ e : Fin 1024, q (ix2 r e) * wq (ix2 e f')) + bq (ix2 (0 : Fin 1) f')) f * kvr (ix2 r f)) * wo (ix2 f g))
          + bo (ix2 (0 : Fin 1) g) := by
  unfold outRows
  rw [projF_apply]
  simp only [mulf_apply, unitF_apply, projF_apply]

/-- When row r of the plane is the query at (s, b), the key·value row is the specification's sums for batch row b, and
    the weights and biases are the specification's, the plane's entry (r, g) is the specification's result at (s, b, g). -/
theorem outRows_spec (query key value : Cert.HydraSpec.Tok.Idx → EReal) (w : Cert.HydraSpec.WIn.Idx → EReal) (β : Cert.HydraSpec.BIn.Idx → EReal) (wo : Cert.HydraSpec.WOut.Idx → EReal) (bo : Cert.HydraSpec.BOut.Idx → EReal)
    (s : Fin 8192) (b : Fin 4) (r : Fin 128) (g : Fin 1024)
    (q kvr : FVec Ideal S128x1024 .f32) (x1 : FVec Ideal S1024x1024 .bf16) (x2 : FVec Ideal S1x1024 .f32) (x4 : FVec Ideal S1024x1024 .bf16) (x5 : FVec Ideal S1x1024 .f32)
    (hq : ∀ e : Fin 1024, q (ix2 r e) = query (ix3 s b e))
    (hkv : ∀ f : Fin 1024, kvr (ix2 r f) = Cert.HydraSpec.kv key value w β b f)
    (h1 : ∀ e f : Fin 1024, x1 (ix2 e f) = w (ix2 (Cert.HydraSpec.row 0 (by decide) f) e))
    (h2 : ∀ f : Fin 1024, x2 (ix2 (0 : Fin 1) f) = β (ix1 (Cert.HydraSpec.row 0 (by decide) f)))
    (h4 : ∀ f g : Fin 1024, x4 (ix2 f g) = wo (ix2 g f))
    (h5 : ∀ g : Fin 1024, x5 (ix2 (0 : Fin 1) g) = bo (ix1 g)) :
    outRows (F := Ideal) q kvr x1 x2 x4 x5 (ix2 r g) = Cert.HydraSpec.G query key value w β wo bo (ix3 s b g) := by
  rw [outRows_apply, Cert.HydraSpec.G_apply]
  simp only [hq, hkv, h1, h2, h4, h5]
  rfl

/-- THE ENTRY: what a point leaves at (r, b, g) of its output block is the specification's result at (s, b, g), when
    row r of the query tile is the query at s and the other blocks hold the specification's weights, biases and sums. -/
theorem out1_6_spec (c : Dev nD) (i : grid1.Coords) (arg1 : Memref sig .tc .vmem S128x4x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S4x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S128x4x1024 .f32) (harg7 : arg7.IsWhole) (query key value : Cert.HydraSpec.Tok.Idx → EReal) (w : Cert.HydraSpec.WIn.Idx → EReal) (β : Cert.HydraSpec.BIn.Idx → EReal) (wo : Cert.HydraSpec.WOut.Idx → EReal) (bo : Cert.HydraSpec.BOut.Idx → EReal)
    (s : Fin 8192) (r : Fin 128) (b : Fin 4) (g : Fin 1024) (x0 : Vec Ideal S128x4x1024 .f32) (x1 : Vec Ideal S1024x1024 .bf16) (x2 : Vec Ideal S1x1024 .f32) (x3 : Vec Ideal S4x1024 .f32) (x4 : Vec Ideal S1024x1024 .bf16) (x5 : Vec Ideal S1x1024 .f32)
    (h0 : ∀ e : Fin 1024, x0 (ix3 r b e) = query (ix3 s b e))
    (h1 : ∀ e f : Fin 1024, x1 (ix2 e f) = w (ix2 (Cert.HydraSpec.row 0 (by decide) f) e))
    (h2 : ∀ f : Fin 1024, x2 (ix2 (0 : Fin 1) f) = β (ix1 (Cert.HydraSpec.row 0 (by decide) f)))
    (h4 : ∀ f g : Fin 1024, x4 (ix2 f g) = wo (ix2 g f))
    (h5 : ∀ g : Fin 1024, x5 (ix2 (0 : Fin 1) g) = bo (ix1 g))
    (h3 : ∀ f : Fin 1024, x3 (ix2 b f) = Cert.HydraSpec.kv key value w β b f) :
    out1_6 (F := Ideal) c i arg1 harg1 arg2 harg2 arg3 harg3 arg4 harg4 arg5 harg5 arg6 harg6 arg7 harg7 x0 x1 x2 x3 x4 x5 (ix3 r b g) = Cert.HydraSpec.G query key value w β wo bo (ix3 s b g) := by
  have hb : b.val = 0 ∨ b.val = 1 ∨ b.val = 2 ∨ b.val = 3 := by have := b.isLt; omega
  rw [out1_6_eq_canon]
  rcases hb with hb | hb | hb | hb
  · obtain rfl : b = 0 := Fin.ext hb
    refine (canon_outPlane_miss 3 _ _ _ r 0 g (by decide)).trans ?_
    refine (canon_outPlane_miss 2 _ _ _ r 0 g (by decide)).trans ?_
    refine (canon_outPlane_miss 1 _ _ _ r 0 g (by decide)).trans ?_
    refine (canon_outPlane_hit 0 _ _ _ r 0 g rfl).trans ?_
    refine (asPlane_apply _ r g).trans ?_
    exact outRows_spec query key value w β wo bo s 0 r g (plane0 x0) (kvRow0 x3) x1 x2 x4 x5
      (fun e => (plane0_apply x0 r e).trans (h0 e)) (fun f => (kvRow0_apply x3 r f).trans (h3 f)) h1 h2 h4 h5
  · obtain rfl : b = 1 := Fin.ext hb
    refine (canon_outPlane_miss 3 _ _ _ r 1 g (by decide)).trans ?_
    refine (canon_outPlane_miss 2 _ _ _ r 1 g (by decide)).trans ?_
    refine (canon_outPlane_hit 1 _ _ _ r 1 g rfl).trans ?_
    refine (asPlane_apply _ r g).trans ?_
    exact outRows_spec query key value w β wo bo s 1 r g (plane1 x0) (kvRow1 x3) x1 x2 x4 x5
      (fun e => (plane1_apply x0 r e).trans (h0 e)) (fun f => (kvRow1_apply x3 r f).trans (h3 f)) h1 h2 h4 h5
  · obtain rfl : b = 2 := Fin.ext hb
    refine (canon_outPlane_miss 3 _ _ _ r 2 g (by decide)).trans ?_
    refine (canon_outPlane_hit 2 _ _ _ r 2 g rfl).trans ?_
    refine (asPlane_apply _ r g).trans ?_
    exact outRows_spec query key value w β wo bo s 2 r g (plane2 x0) (kvRow2 x3) x1 x2 x4 x5
      (fun e => (plane2_apply x0 r e).trans (h0 e)) (fun f => (kvRow2_apply x3 r f).trans (h3 f)) h1 h2 h4 h5
  · obtain rfl : b = 3 := Fin.ext hb
    refine (canon_outPlane_hit 3 _ _ _ r 3 g rfl).trans ?_
    refine (asPlane_apply _ r g).trans ?_
    exact outRows_spec query key value w β wo bo s 3 r g (plane3 x0) (kvRow3 x3) x1 x2 x4 x5
      (fun e => (plane3_apply x0 r e).trans (h0 e)) (fun f => (kvRow3_apply x3 r f).trans (h3 f)) h1 h2 h4 h5

end Math

end Cert.KernelIdeal.Run

end
-- ==== Proof.KernelIdeal.OutValue.lean ====
/-
  Region 1's result: the block written back at grid point t is rows 128·t … 128·t+127 of the result, and at
  (s, b, g) it holds the output projection of (normalised projected query) · (key·value sums), which is the
  specification, given that the key·value array the region reads holds the specification's sums.
-/
import proofs.«124462_j10599979287185_1_alg».proof.Proof.KernelIdeal.Vals
import proofs.«124462_j10599979287185_1_alg».proof.Proof.KernelIdeal.RowMath
import proofs.«124462_j10599979287185_1_alg».proof.Proof.KernelIdeal.HostArrays
import proofs.«124462_j10599979287185_1_alg».proof.Proof.KernelIdeal.BlockReads
import proofs.«124462_j10599979287185_1_alg».proof.Proof.KernelIdeal.OutPieces
import proofs.«124462_j10599979287185_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Run

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## From blocks to the array -/

/-- The output window's block index at grid point t is (t, 0, 0). -/
theorem idx_out1 : ∀ t : Fin cfg1.N, win1_6.index t (0 : Fin 3) = t.val ∧ win1_6.index t (1 : Fin 3) = 0 ∧ win1_6.index t (2 : Fin 3) = 0 :=
  (by decide +kernel : ∀ t : Fin grid1.N, _)

variable (m : (ℓ : Loc nD τ sig) → Buf (Elt Ideal) ℓ) (ρ : Dev nD → PrngReg)

/-- What point t writes back is block t of the specification's result: entry (r, b, g) of the block sits at
    (128·t + r, b, g) of the array, and the body's result there is the specification's at that position. -/
theorem flushed1_6_eq (c : Dev nD)
    (hkv : ∀ (b : Fin 4) (f : Fin 1024), V2 m ρ c main_v18 (ix2 b f) = Cert.HydraSpec.kv (m ((c : Thread nD τ).loc main_arg1)) (m ((c : Thread nD τ).loc main_arg2)) (m ((c : Thread nD τ).loc main_arg3)) (m ((c : Thread nD τ).loc main_arg4)) b f)
    (t : Fin cfg1.N) :
    (dat1 (V2 m ρ) c).flushed 6 t
      = ((cfg1.win 6).blk t).view.read (Elt Ideal) (Cert.HydraSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg1.win 6).cut (grid1.coords t) ((dat1 (V2 m ρ) c).after 6 t) = _
  rw [after1_6]
  obtain ⟨e0, e1, e2⟩ := idx_out1 t
  funext y
  obtain ⟨r, b, g, rfl⟩ : ∃ (r : Fin 128) (b : Fin 4) (g : Fin 1024), y = ix3 r b g := ⟨y 0, y 1, y 2, eq_ix3 y⟩
  have hs : 128 * t.val + r.val < 8192 := by have h1 := t.isLt; have h2 : cfg1.N = 64 := N_1; have h3 := r.isLt; omega
  have hemb : ((cfg1.win 6).blk t).view.emb (ix3 r b g) = (ix3 (⟨128 * t.val + r.val, hs⟩ : Fin 8192) b g : S8192x4x1024.Idx) := by
    funext a; apply Fin.ext
    match a with
    | ⟨0, _⟩ => show win1_6.index t (0 : Fin 3) * 128 + 1 * r.val = 128 * t.val + r.val; rw [e0]; omega
    | ⟨1, _⟩ => show win1_6.index t (1 : Fin 3) * 4 + 1 * b.val = b.val; rw [e1]; omega
    | ⟨2, _⟩ => show win1_6.index t (2 : Fin 3) * 1024 + 1 * g.val = g.val; rw [e2]; omega
  show out1_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (ix3 r b g)
      = Cert.HydraSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg1.win 6).blk t).view.emb (ix3 r b g))
  rw [hemb]
  exact out1_6_spec c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (⟨128 * t.val + r.val, hs⟩ : Fin 8192) r b g (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t)
    (fun e => (iblk1_0_apply (V2 m ρ) c t r b e).trans (congrFun ((V2_arg0 m ρ c).trans (V1_arg0 m ρ c)) _))
    (fun e f => (iblk1_1_apply (V2 m ρ) c t e f).trans ((congrFun (V2_v7 m ρ c) _).trans (V1_v7 m ρ c e f)))
    (fun f => (iblk1_2_apply (V2 m ρ) c t f).trans ((congrFun (V2_v14 m ρ c) _).trans (V1_v14 m ρ c f)))
    (fun f g => (iblk1_4_apply (V2 m ρ) c t f g).trans ((congrFun (V2_v13 m ρ c) _).trans (V1_v13 m ρ c f g)))
    (fun g => (iblk1_5_apply (V2 m ρ) c t g).trans ((congrFun (V2_v17 m ρ c) _).trans (V1_v17 m ρ c g)))
    (fun f => (iblk1_3_apply (V2 m ρ) c t b f).trans (hkv b f))

/-- Every index of the result array lies in the block of the point that holds its row: row s is in block s / 128. -/
theorem cover1_out (i : S8192x4x1024.Idx) :
    ∃ t : Fin cfg1.N, (cfg1.win 6).flush t = true ∧ i ∈ ((cfg1.win 6).blk t).view.set := by
  have hN : cfg1.N = 64 := N_1
  have hi0 : (i 0).val < 8192 := (i 0).isLt
  have hi1 : (i 1).val < 4 := (i 1).isLt
  have hi2 : (i 2).val < 1024 := (i 2).isLt
  have ht : (i 0).val / 128 < cfg1.N := by omega
  obtain ⟨e0, e1, e2⟩ := idx_out1 ⟨(i 0).val / 128, ht⟩
  refine ⟨⟨(i 0).val / 128, ht⟩, flush1_6 _, ?_⟩
  show i ∈ ((View.whole main_v19).slice (win1_6.rect ⟨(i 0).val / 128, ht⟩)).set
  rw [View.set_slice_whole, Rect.mem_set_unit]
  intro a
  match a with
  | ⟨0, _⟩ =>
    show win1_6.index ⟨(i 0).val / 128, ht⟩ (0 : Fin 3) * 128 ≤ (i 0).val ∧ (i 0).val < win1_6.index ⟨(i 0).val / 128, ht⟩ (0 : Fin 3) * 128 + 128
    rw [e0]; show (i 0).val / 128 * 128 ≤ (i 0).val ∧ (i 0).val < (i 0).val / 128 * 128 + 128; omega
  | ⟨1, _⟩ =>
    show win1_6.index ⟨(i 0).val / 128, ht⟩ (1 : Fin 3) * 4 ≤ (i 1).val ∧ (i 1).val < win1_6.index ⟨(i 0).val / 128, ht⟩ (1 : Fin 3) * 4 + 4
    rw [e1]; omega
  | ⟨2, _⟩ =>
    show win1_6.index ⟨(i 0).val / 128, ht⟩ (2 : Fin 3) * 1024 ≤ (i 2).val ∧ (i 2).val < win1_6.index ⟨(i 0).val / 128, ht⟩ (2 : Fin 3) * 1024 + 1024
    rw [e2]; omega

/-- The array region 1 leaves is the specification's result, given the key·value sums it reads. -/
theorem out_final (c : Dev nD)
    (hkv : ∀ (b : Fin 4) (f : Fin 1024), V2 m ρ c main_v18 (ix2 b f) = Cert.HydraSpec.kv (m ((c : Thread nD τ).loc main_arg1)) (m ((c : Thread nD τ).loc main_arg2)) (m ((c : Thread nD τ).loc main_arg3)) (m ((c : Thread nD τ).loc main_arg4)) b f) :
    (dat1 (V2 m ρ) c).arrAt 6 cfg1.N
      = Cert.HydraSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dat1 (V2 m ρ) c).arrAt_eq_of_cover 6 (Cert.HydraSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (fun t _ => flushed1_6_eq m ρ c hkv t) (fun i => cover1_out i)

end Cert.KernelIdeal.Run

end
-- ==== Proof.RefValue.lean ====
/-
  The reference's result is the specification: the host program's run, read one operation at a time,
  is `HydraSpec.G` of its seven argument arrays.
-/
import proofs.«124462_j10599979287185_1_alg».proof.Defs
import proofs.«124462_j10599979287185_1_alg».proof.Proof.Gen.ReferenceIdeal.Run
import proofs.«124462_j10599979287185_1_alg».proof.Proof.Gen.ReferenceIdeal.Read
import proofs.«124462_j10599979287185_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.TcCoe Idealize.SL.Sem Idealize.ShloMosaic.ValueIdx
open Cert.ReferenceIdeal

open Cert.ReferenceIdeal.Read Cert.HydraSpec

/-- The array types of the arguments. -/
abbrev TokA := (⟨S8192x4x1024, .f32⟩ : BufTy).Contents (Elt Ideal)
abbrev WInA := (⟨S3072x1024, .f32⟩ : BufTy).Contents (Elt Ideal)
abbrev BInA := (⟨S3072, .f32⟩ : BufTy).Contents (Elt Ideal)
abbrev WOutA := (⟨S1024x1024, .f32⟩ : BufTy).Contents (Elt Ideal)
abbrev BOutA := (⟨S1024, .f32⟩ : BufTy).Contents (Elt Ideal)

/-! ## Index equations: the composed index maps of the operations, at coordinates -/

/-- A projection's token operand at `(s, b, f)` and contraction coordinate `k` is the token entry `(s, b, k)`. -/
theorem lidx6 (s : Fin 8192) (b : Fin 4) (f k : Fin 1024) : lidx_main_v6 (ix3 s b f) k = ix3 s b k :=
  funext fun a => by match a with | ⟨0, _⟩ => rfl | ⟨1, _⟩ => rfl | ⟨2, _⟩ => rfl
theorem lidx11 (s : Fin 8192) (b : Fin 4) (f k : Fin 1024) : lidx_main_v11 (ix3 s b f) k = ix3 s b k :=
  funext fun a => by match a with | ⟨0, _⟩ => rfl | ⟨1, _⟩ => rfl | ⟨2, _⟩ => rfl
theorem lidx16 (s : Fin 8192) (b : Fin 4) (f k : Fin 1024) : lidx_main_v16 (ix3 s b f) k = ix3 s b k :=
  funext fun a => by match a with | ⟨0, _⟩ => rfl | ⟨1, _⟩ => rfl | ⟨2, _⟩ => rfl
theorem lidx33 (s : Fin 8192) (b : Fin 4) (g k : Fin 1024) : lidx_main_v33 (ix3 s b g) k = ix3 s b k :=
  funext fun a => by match a with | ⟨0, _⟩ => rfl | ⟨1, _⟩ => rfl | ⟨2, _⟩ => rfl

/-- Its weight operand is row `off + f` of the packed weight, column `k`: the slice at offset `off` read through. -/
theorem ridx6 (s : Fin 8192) (b : Fin 4) (f k : Fin 1024) :
    idx_main_v0 (ridx_main_v6 (ix3 s b f) k) = ix2 (row 0 (by decide) f) k :=
  funext fun a => Fin.ext (by match a with | ⟨0, _⟩ => exact (Nat.zero_add _).symm | ⟨1, _⟩ => rfl)
theorem ridx11 (s : Fin 8192) (b : Fin 4) (f k : Fin 1024) :
    idx_main_v1 (ridx_main_v11 (ix3 s b f) k) = ix2 (row 1024 (by decide) f) k :=
  funext fun a => Fin.ext (by match a with | ⟨0, _⟩ => rfl | ⟨1, _⟩ => rfl)
theorem ridx16 (s : Fin 8192) (b : Fin 4) (f k : Fin 1024) :
    idx_main_v2 (ridx_main_v16 (ix3 s b f) k) = ix2 (row 2048 (by decide) f) k :=
  funext fun a => Fin.ext (by match a with | ⟨0, _⟩ => rfl | ⟨1, _⟩ => rfl)
theorem ridx33 (s : Fin 8192) (b : Fin 4) (g k : Fin 1024) : ridx_main_v33 (ix3 s b g) k = ix2 g k :=
  funext fun a => by match a with | ⟨0, _⟩ => rfl | ⟨1, _⟩ => rfl

/-- The bias broadcast over `(s, b)` reads entry `off + f` of the packed bias. -/
theorem bidx8 (s : Fin 8192) (b : Fin 4) (f : Fin 1024) :
    idx_main_v3 (idx_main_v7 (idx_main_v8 (ix3 s b f))) = ix1 (row 0 (by decide) f) :=
  funext fun a => Fin.ext (by match a with | ⟨0, _⟩ => exact (Nat.zero_add _).symm)
theorem bidx13 (s : Fin 8192) (b : Fin 4) (f : Fin 1024) :
    idx_main_v4 (idx_main_v12 (idx_main_v13 (ix3 s b f))) = ix1 (row 1024 (by decide) f) :=
  funext fun a => Fin.ext (by match a with | ⟨0, _⟩ => rfl)
theorem bidx18 (s : Fin 8192) (b : Fin 4) (f : Fin 1024) :
    idx_main_v5 (idx_main_v17 (idx_main_v18 (ix3 s b f))) = ix1 (row 2048 (by decide) f) :=
  funext fun a => Fin.ext (by match a with | ⟨0, _⟩ => rfl)
theorem bidx35 (s : Fin 8192) (b : Fin 4) (g : Fin 1024) :
    idx_main_v34 (idx_main_v35 (ix3 s b g)) = ix1 g :=
  funext fun a => by match a with | ⟨0, _⟩ => rfl

/-- The transposes exchange the sequence and batch coordinates. -/
theorem tidx10 (s : Fin 8192) (b : Fin 4) (f : Fin 1024) : idx_main_v10 (ix3 b s f) = ix3 s b f :=
  funext fun a => by match a with | ⟨0, _⟩ => rfl | ⟨1, _⟩ => rfl | ⟨2, _⟩ => rfl
theorem tidx15 (s : Fin 8192) (b : Fin 4) (f : Fin 1024) : idx_main_v15 (ix3 b s f) = ix3 s b f :=
  funext fun a => by match a with | ⟨0, _⟩ => rfl | ⟨1, _⟩ => rfl | ⟨2, _⟩ => rfl
theorem tidx20 (s : Fin 8192) (b : Fin 4) (f : Fin 1024) : idx_main_v20 (ix3 b s f) = ix3 s b f :=
  funext fun a => by match a with | ⟨0, _⟩ => rfl | ⟨1, _⟩ => rfl | ⟨2, _⟩ => rfl
theorem tidx32 (s : Fin 8192) (b : Fin 4) (f : Fin 1024) : idx_main_v32 (ix3 s b f) = ix3 b s f :=
  funext fun a => by match a with | ⟨0, _⟩ => rfl | ⟨1, _⟩ => rfl | ⟨2, _⟩ => rfl

/-- The sum of squares over the features runs over `(b, s, k)`; its kept-dimension broadcast reads `(b, s)`. -/
theorem nidx0 (s : Fin 8192) (b : Fin 4) (k : Fin 1024) : idx_main_call0_v1 (ix2 b s) k = ix3 b s k :=
  funext fun a => by match a with | ⟨0, _⟩ => rfl | ⟨1, _⟩ => rfl | ⟨2, _⟩ => rfl
theorem nidx1 (s : Fin 8192) (b : Fin 4) (k : Fin 1024) : idx_main_call1_v1 (ix2 b s) k = ix3 b s k :=
  funext fun a => by match a with | ⟨0, _⟩ => rfl | ⟨1, _⟩ => rfl | ⟨2, _⟩ => rfl
theorem nidx22 (s : Fin 8192) (b : Fin 4) (f : Fin 1024) : idx_main_call0_v2 (idx_main_v22 (ix3 b s f)) = ix2 b s :=
  funext fun a => by match a with | ⟨0, _⟩ => rfl | ⟨1, _⟩ => rfl
theorem nidx25 (s : Fin 8192) (b : Fin 4) (f : Fin 1024) : idx_main_call1_v2 (idx_main_v25 (ix3 b s f)) = ix2 b s :=
  funext fun a => by match a with | ⟨0, _⟩ => rfl | ⟨1, _⟩ => rfl

/-- The sum over the sequence runs over `(b, k, f)`; its broadcast back reads `(b, f)`. -/
theorem kidx28 (b : Fin 4) (f : Fin 1024) (k : Fin 8192) : idx_main_v28 (ix2 b f) k = ix3 b k f :=
  funext fun a => by match a with | ⟨0, _⟩ => rfl | ⟨1, _⟩ => rfl | ⟨2, _⟩ => rfl
theorem kidx30 (s : Fin 8192) (b : Fin 4) (f : Fin 1024) : idx_main_v29 (idx_main_v30 (ix3 b s f)) = ix2 b f :=
  funext fun a => by match a with | ⟨0, _⟩ => rfl | ⟨1, _⟩ => rfl

/-! ## The three projections -/

/-- The projected queries before the transpose. -/
theorem v9_at (x0 : TokA) (x3 : WInA) (x4 : BInA) (s : Fin 8192) (b : Fin 4) (f : Fin 1024) :
    val_main_v9 (F := Ideal) x0 x3 x4 (ix3 s b f) = projQ x0 x3 x4 s b f := by
  rw [val_main_v9_apply, val_main_v6_apply, val_main_v8_apply, val_main_v7_apply, val_main_v3_apply, bidx8]
  simp only [val_main_v0_apply, lidx6, ridx6, Ideal.addf_def]
  rfl
/-- The projected keys before the transpose. -/
theorem v14_at (x1 : TokA) (x3 : WInA) (x4 : BInA) (s : Fin 8192) (b : Fin 4) (f : Fin 1024) :
    val_main_v14 (F := Ideal) x1 x3 x4 (ix3 s b f) = projK x1 x3 x4 s b f := by
  rw [val_main_v14_apply, val_main_v11_apply, val_main_v13_apply, val_main_v12_apply, val_main_v4_apply, bidx13]
  simp only [val_main_v1_apply, lidx11, ridx11, Ideal.addf_def]
  rfl
/-- The projected values before the transpose. -/
theorem v19_at (x2 : TokA) (x3 : WInA) (x4 : BInA) (s : Fin 8192) (b : Fin 4) (f : Fin 1024) :
    val_main_v19 (F := Ideal) x2 x3 x4 (ix3 s b f) = projV x2 x3 x4 s b f := by
  rw [val_main_v19_apply, val_main_v16_apply, val_main_v18_apply, val_main_v17_apply, val_main_v5_apply, bidx18]
  simp only [val_main_v2_apply, lidx16, ridx16, Ideal.addf_def]
  rfl

/-- After the transpose: batch first. -/
theorem v10_at (x0 : TokA) (x3 : WInA) (x4 : BInA) (s : Fin 8192) (b : Fin 4) (f : Fin 1024) :
    val_main_v10 (F := Ideal) x0 x3 x4 (ix3 b s f) = projQ x0 x3 x4 s b f := by
  rw [val_main_v10_apply, tidx10, v9_at]
theorem v15_at (x1 : TokA) (x3 : WInA) (x4 : BInA) (s : Fin 8192) (b : Fin 4) (f : Fin 1024) :
    val_main_v15 (F := Ideal) x1 x3 x4 (ix3 b s f) = projK x1 x3 x4 s b f := by
  rw [val_main_v15_apply, tidx15, v14_at]
theorem v20_at (x2 : TokA) (x3 : WInA) (x4 : BInA) (s : Fin 8192) (b : Fin 4) (f : Fin 1024) :
    val_main_v20 (F := Ideal) x2 x3 x4 (ix3 b s f) = projV x2 x3 x4 s b f := by
  rw [val_main_v20_apply, tidx20, v19_at]

/-! ## The Euclidean lengths and the normalised queries and keys -/

/-- The sum of squares of the projected query at `(s, b)`. -/
theorem q_sumsq (x0 : TokA) (x3 : WInA) (x4 : BInA) (s : Fin 8192) (b : Fin 4) :
    val_main_call0_v1 (F := Ideal) x0 x3 x4 (ix2 b s)
      = ∑ f : Fin 1024, projQ x0 x3 x4 s b f * projQ x0 x3 x4 s b f := by
  rw [val_main_call0_v1_apply, val_main_call0_cst_apply, Ideal.ofBits_def, Ideal.ofBits_zero_f32, zero_add]
  simp only [nidx0, val_main_call0_v0_apply, v10_at, Ideal.mulf_def]
/-- The sum of squares of the projected key at `(s, b)`. -/
theorem k_sumsq (x1 : TokA) (x3 : WInA) (x4 : BInA) (s : Fin 8192) (b : Fin 4) :
    val_main_call1_v1 (F := Ideal) x1 x3 x4 (ix2 b s)
      = ∑ f : Fin 1024, projK x1 x3 x4 s b f * projK x1 x3 x4 s b f := by
  rw [val_main_call1_v1_apply, val_main_call1_cst_apply, Ideal.ofBits_def, Ideal.ofBits_zero_f32, zero_add]
  simp only [nidx1, val_main_call1_v0_apply, v15_at, Ideal.mulf_def]

/-- The query's length, broadcast over the features. -/
theorem v22_at (x0 : TokA) (x3 : WInA) (x4 : BInA) (s : Fin 8192) (b : Fin 4) (f : Fin 1024) :
    val_main_v22 (F := Ideal) x0 x3 x4 (ix3 b s f) = len (projQ x0 x3 x4 s b) := by
  rw [val_main_v22_apply, val_main_v21_apply, val_main_call0_v2_apply, nidx22, q_sumsq, Ideal.hostUnary_sqrt_def]
  rfl
/-- The key's length, broadcast over the features. -/
theorem v25_at (x1 : TokA) (x3 : WInA) (x4 : BInA) (s : Fin 8192) (b : Fin 4) (f : Fin 1024) :
    val_main_v25 (F := Ideal) x1 x3 x4 (ix3 b s f) = len (projK x1 x3 x4 s b) := by
  rw [val_main_v25_apply, val_main_v24_apply, val_main_call1_v2_apply, nidx25, k_sumsq, Ideal.hostUnary_sqrt_def]
  rfl

/-- The normalised query. -/
theorem v23_at (x0 : TokA) (x3 : WInA) (x4 : BInA) (s : Fin 8192) (b : Fin 4) (f : Fin 1024) :
    val_main_v23 (F := Ideal) x0 x3 x4 (ix3 b s f) = unit (projQ x0 x3 x4 s b) f := by
  rw [val_main_v23_apply, v10_at, v22_at, Ideal.hostDivf_def]
  rfl
/-- The normalised key. -/
theorem v26_at (x1 : TokA) (x3 : WInA) (x4 : BInA) (s : Fin 8192) (b : Fin 4) (f : Fin 1024) :
    val_main_v26 (F := Ideal) x1 x3 x4 (ix3 b s f) = unit (projK x1 x3 x4 s b) f := by
  rw [val_main_v26_apply, v15_at, v25_at, Ideal.hostDivf_def]
  rfl

/-! ## The sequence sum, the attention output and the output projection -/

/-- One sequence position's term. -/
theorem v27_at (x1 x2 : TokA) (x3 : WInA) (x4 : BInA) (s : Fin 8192) (b : Fin 4) (f : Fin 1024) :
    val_main_v27 (F := Ideal) x1 x2 x3 x4 (ix3 b s f) = kvTerm x1 x2 x3 x4 b f s := by
  rw [val_main_v27_apply, v26_at, v20_at, Ideal.mulf_def]
  rfl
/-- The sum over the sequence. -/
theorem v28_at (x1 x2 : TokA) (x3 : WInA) (x4 : BInA) (b : Fin 4) (f : Fin 1024) :
    val_main_v28 (F := Ideal) x1 x2 x3 x4 (ix2 b f) = kv x1 x2 x3 x4 b f := by
  rw [val_main_v28_apply, val_main_cst_apply, Ideal.ofBits_def, Ideal.ofBits_zero_f32, zero_add]
  simp only [kidx28, v27_at]
  rfl
/-- Broadcast back over the sequence. -/
theorem v30_at (x1 x2 : TokA) (x3 : WInA) (x4 : BInA) (s : Fin 8192) (b : Fin 4) (f : Fin 1024) :
    val_main_v30 (F := Ideal) x1 x2 x3 x4 (ix3 b s f) = kv x1 x2 x3 x4 b f := by
  rw [val_main_v30_apply, val_main_v29_apply, kidx30, v28_at]
/-- The attention output, batch first. -/
theorem v31_at (x0 x1 x2 : TokA) (x3 : WInA) (x4 : BInA) (s : Fin 8192) (b : Fin 4) (f : Fin 1024) :
    val_main_v31 (F := Ideal) x0 x1 x2 x3 x4 (ix3 b s f) = attn x0 x1 x2 x3 x4 s b f := by
  rw [val_main_v31_apply, v23_at, v30_at, Ideal.mulf_def]
  rfl
/-- The attention output, sequence first. -/
theorem v32_at (x0 x1 x2 : TokA) (x3 : WInA) (x4 : BInA) (s : Fin 8192) (b : Fin 4) (f : Fin 1024) :
    val_main_v32 (F := Ideal) x0 x1 x2 x3 x4 (ix3 s b f) = attn x0 x1 x2 x3 x4 s b f := by
  rw [val_main_v32_apply, tidx32, v31_at]
/-- The result at `(s, b, g)`. -/
theorem v36_at (x0 x1 x2 : TokA) (x3 : WInA) (x4 : BInA) (x5 : WOutA) (x6 : BOutA) (s : Fin 8192) (b : Fin 4) (g : Fin 1024) :
    val_main_v36 (F := Ideal) x0 x1 x2 x3 x4 x5 x6 (ix3 s b g) = G x0 x1 x2 x3 x4 x5 x6 (ix3 s b g) := by
  rw [val_main_v36_apply, val_main_v33_apply, val_main_v35_apply, val_main_v34_apply, bidx35, G_apply]
  simp only [lidx33, ridx33, v32_at, Ideal.addf_def]

/-- The reference's last stage is the specification. -/
theorem val_eq_G (x0 x1 x2 : TokA) (x3 : WInA) (x4 : BInA) (x5 : WOutA) (x6 : BOutA) :
    val_main_v36 (F := Ideal) x0 x1 x2 x3 x4 x5 x6 = G x0 x1 x2 x3 x4 x5 x6 := by
  funext i
  obtain ⟨s, b, g, rfl⟩ : ∃ (s : Fin 8192) (b : Fin 4) (g : Fin 1024), i = ix3 s b g := ⟨i 0, i 1, i 2, eq_ix3 i⟩
  exact v36_at x0 x1 x2 x3 x4 x5 x6 s b g

/-- Every weakly fair execution of the reference ends with its result array at the specification of the
    launch contents of its arguments, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36)
          = Cert.HydraSpec.G (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun _ h c => ⟨(h c).1.trans ((val_main_v36_eq m c).trans (val_eq_G _ _ _ _ _ _ _)), (h c).2⟩)
    (Cert.ReferenceIdeal.Value.run (F := Ideal) m ρ)

end Cert.ReferenceIdeal.RefValue

end
-- ==== Proof.lean ====
/-
  The certificate of the two-pass linear attention kernel against its jnp reference.

  Both programs compute one function of the seven argument arrays (`Cert.HydraSpec.G`): queries, keys and
  values are projected by the three thirds of the packed weight and bias; queries and keys are divided by
  their Euclidean lengths; `kv b f` sums (normalised key)·(value) over all 8192 sequence positions; the
  result is the output projection of (normalised query)·`kv`.

  * The kernel computes `kv` in its first pass, tile by tile into a scratch accumulator that it resets at the
    first grid point; after point n the accumulator holds the partial sum over the first 128·(n+1)
    positions, so after the last point the whole sum — a regrouping of one sum over an additive commutative
    monoid, which needs no finiteness of the inputs.  Its second pass computes each 128-position tile of the
    result from the query tile and the finished `kv`.  Narrowing to bf16 is the identity over the extended
    reals, a matrix product into a zero accumulator is the plain sum, and the kernel's square root and
    quotient are the host's.
  * The reference's host program, read one operation at a time, is the same function; its two transposes only
    exchange the sequence and batch coordinates.

  The three frames: the two kernel programs run through their eighteen host operations and two pipelined
  regions with every argument array unchanged (one text at any float instance, read at the word level and at
  the extended reals); the reference's frame is its run with the result dropped.  The idealization rewrote
  nothing, so its conjunct is trivial.
-/
import proofs.«124462_j10599979287185_1_alg».proof.Defs
import proofs.«124462_j10599979287185_1_alg».proof.Proof.Gen.Kernel
import proofs.«124462_j10599979287185_1_alg».proof.Proof.Gen.KernelIdeal
import proofs.«124462_j10599979287185_1_alg».proof.Proof.Gen.ReferenceIdeal
import proofs.«124462_j10599979287185_1_alg».proof.Proof.Gen.Pre_finite_inputs
import proofs.«124462_j10599979287185_1_alg».proof.Proof.Kernel.Frame
import proofs.«124462_j10599979287185_1_alg».proof.Proof.KernelIdeal.Frame
import proofs.«124462_j10599979287185_1_alg».proof.Proof.KernelIdeal.KvValue
import proofs.«124462_j10599979287185_1_alg».proof.Proof.KernelIdeal.OutValue
import proofs.«124462_j10599979287185_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program's frame. -/
theorem frame_k : Cert.frame_Kernel := fun m ρ _ => Cert.Kernel.Run.frame (F := Bits) m ρ

/-- The idealized kernel program's frame. -/
theorem frame_ki : Cert.frame_KernelIdeal := fun m ρ _ => Cert.KernelIdeal.Run.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.RefValue.run_spec m ρ)

/-- The idealization rewrote no operation. -/
theorem preserves : Cert.preserves_Kernel_KernelIdeal := trivial

/-- The kernel's result array ends at the specification of its arguments: region 1's write-backs leave the
    output projection of (normalised query)·`kv`, and the `kv` array it reads is what region 0 left. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Run.W3 m ρ c (Proc.devRef .tc Cert.KernelIdeal.main_v19)
      = Cert.HydraSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
  (Cert.KernelIdeal.Run.W3_main_v19 m ρ c).trans
    (Cert.KernelIdeal.Run.out_final m ρ c (fun b f => by rw [Cert.KernelIdeal.Run.V2_v18]; exact Cert.KernelIdeal.Run.kv_final m ρ c b f))

/-- Both idealized programs, from memories agreeing on the arguments, end with the specification of the
    arguments in their result arrays and the arguments unchanged. -/
theorem algebraic : Cert.algebraic_KernelIdeal_ReferenceIdeal := by
  intro m ρ m' ρ' _ hagree
  refine ⟨fun c => Cert.HydraSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Run.run_all (F := Ideal) m ρ)
    exact ⟨(h c _ (Cert.KernelIdeal.Run.mem_uc Cert.KernelIdeal.main_v19 (by decide))).trans (kernel_value m ρ c),
      (h c _ (Cert.KernelIdeal.Run.mem_uc Cert.KernelIdeal.main_arg0 (by decide))).trans (Cert.KernelIdeal.Run.W3_main_arg0 m ρ c),
      (h c _ (Cert.KernelIdeal.Run.mem_uc Cert.KernelIdeal.main_arg1 (by decide))).trans (Cert.KernelIdeal.Run.W3_main_arg1 m ρ c),
      (h c _ (Cert.KernelIdeal.Run.mem_uc Cert.KernelIdeal.main_arg2 (by decide))).trans (Cert.KernelIdeal.Run.W3_main_arg2 m ρ c),
      (h c _ (Cert.KernelIdeal.Run.mem_uc Cert.KernelIdeal.main_arg3 (by decide))).trans (Cert.KernelIdeal.Run.W3_main_arg3 m ρ c),
      (h c _ (Cert.KernelIdeal.Run.mem_uc Cert.KernelIdeal.main_arg4 (by decide))).trans (Cert.KernelIdeal.Run.W3_main_arg4 m ρ c),
      (h c _ (Cert.KernelIdeal.Run.mem_uc Cert.KernelIdeal.main_arg5 (by decide))).trans (Cert.KernelIdeal.Run.W3_main_arg5 m ρ c),
      (h c _ (Cert.KernelIdeal.Run.mem_uc Cert.KernelIdeal.main_arg6 (by decide))).trans (Cert.KernelIdeal.Run.W3_main_arg6 m ρ c)⟩
  · refine (θ_run Cert.ReferenceIdeal.defs _ _).mono (fun r h c => ⟨(h c).1.trans ?_, (h c).2⟩)
      (Cert.ReferenceIdeal.RefValue.run_spec m' ρ')
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
